-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S16384x1024 : Shape := ⟨2, ![16384, 1024]⟩
abbrev S1024x512 : Shape := ⟨2, ![1024, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x512 .f32) (main_arg1 : FVec F S16384x1024 .f32) (main_arg2 : FVec F S1024x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S8192x512 : Shape := ⟨2, ![8192, 512]⟩
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩
abbrev S2048x512 : Shape := ⟨2, ![2048, 512]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 5
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S16384x1024, .f32⟩
  | .hbm, ⟨2, _⟩ => ⟨S1024x512, .f32⟩
  | .hbm, ⟨3, _⟩ => ⟨S16384x512, .bf16⟩
  | .hbm, ⟨4, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S2048x512, .bf16⟩
  | .local _ .vmem, ⟨8, _⟩ => ⟨S2048x512, .bf16⟩
  | .local _ .vmem, ⟨9, _⟩ => ⟨S1024x512, .f32⟩
  | .local _ .vmem, ⟨10, _⟩ => ⟨S1024x512, .f32⟩
  | .local _ .vmem, ⟨11, _⟩ => ⟨S1024x1, .f32⟩
  | .local _ .vmem, ⟨12, _⟩ => ⟨S1024x1, .f32⟩
  | .local _ .vmem, ⟨13, _⟩ => ⟨S1024x512, .f32⟩
  | .local _ .vmem, ⟨14, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc1_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_21 : BitVec 32 := 0#32
  let v39 : BitVec 1 := Scalar.cmpi .ne v38 c0_i32_21
  v39

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x512 : S1024x1.Broadcasts S1024x512
  dot_S1024x1024_S1024x512_S1024x512_1_0_0_1_n_n_wf : DotDims.WF S1024x1024 S1024x512 S1024x512 [1] [0] [0] [1] [] []
  dot_S1024x512_S2048x512_S1024x2048_1_1_0_0_n_n_wf : DotDims.WF S1024x512 S2048x512 S1024x2048 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .bf16 = 32 ∨ (Rect.block (s := S16384x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S16384x512.size a
  hwx1_1 : ∀ i : grid1.Coords, EltTy.bits .bf16 = 32 ∨ (Rect.block (s := S16384x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S16384x1024 : Shape := ⟨2, ![16384, 1024]⟩
abbrev S1024x512 : Shape := ⟨2, ![1024, 512]⟩
abbrev S16384x512 : Shape := ⟨2, ![16384, 512]⟩
abbrev S8192x16384 : Shape := ⟨2, ![8192, 16384]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16384x1024, .f32⟩
  | .hbm, ⟨2, _⟩ => ⟨S1024x512, .f32⟩
  | .hbm, ⟨3, _⟩ => ⟨S16384x512, .f32⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x16384, .f32⟩
  | .hbm, ⟨15, _⟩ => ⟨S8192x16384, .f32⟩
  | .hbm, ⟨16, _⟩ => ⟨S8192x16384, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x16384, .f32⟩
  | .hbm, ⟨21, _⟩ => ⟨S8192x16384, .f32⟩
  | .hbm, ⟨22, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)
  reducesTo_S8192x16384_S8192_d1 : S8192x16384.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16384_0_1 : S8192x1.BroadcastsInDim S8192x16384 (![0, 1] : Fin 2 → Fin S8192x16384.rank)
  dot_S16384x1024_S1024x512_S16384x512_1_0_0_1_n_n_wf : DotDims.WF S16384x1024 S1024x512 S16384x512 [1] [0] [0] [1] [] []
  dot_S8192x512_S16384x512_S8192x16384_1_1_0_0_n_n_wf : DotDims.WF S8192x512 S16384x512 S8192x16384 [1] [1] [0] [0] [] []
  dot_S8192x16384_S16384x512_S8192x512_1_0_0_1_n_n_wf : DotDims.WF S8192x16384 S16384x512 S8192x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S8192x512_S16384x512_S8192x16384_1_1_0_0_n_n : DotDims S8192x512 S16384x512 S8192x16384 where
  lhsContracting := [1]
  rhsContracting := [1]
  lhsNonContracting := [0]
  rhsNonContracting := [0]
  lhsBatch := []
  rhsBatch := []
  wf := dot_S8192x512_S16384x512_S8192x16384_1_1_0_0_n_n_wf
def dot_S8192x16384_S16384x512_S8192x512_1_0_0_1_n_n : DotDims S8192x16384 S16384x512 S8192x512 where
  lhsContracting := [1]
  rhsContracting := [0]
  lhsNonContracting := [0]
  rhsNonContracting := [1]
  lhsBatch := []
  rhsBatch := []
  wf := dot_S8192x16384_S16384x512_S8192x512_1_0_0_1_n_n_wf

class Facts : Prop extends Facts₀ where

variable [Facts]
-- ==== Proof.Bits.KvRegion.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: one row block of `kv = X · D` per grid point

Each of the 16 points loads a block of 1024 rows of `X` and the whole of `D`, multiplies them and stores the
product as the matching row block of `kv`. Nothing is kept between points. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `X` sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `D`, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x1024 := Rect.unit (s := S1024x1024) ![0, 0] S1024x1024.size inb_S1024x1024_S1024x1024_0_0
abbrev r0_w : Rect S1024x512 := Rect.unit (s := S1024x512) ![0, 0] S1024x512.size inb_S1024x512_S1024x512_0_0

/-- What the body leaves in the output buffer: its one store, of the product of the two loaded blocks. -/
def out0_2 (x0 : Vec F S1024x1024 .f32) (x1 : Vec F S1024x512 .f32) : Vec F S1024x512 .bf16 :=
  View.canon [⟨r0_w, k0_pay1 (View.ld x0 r0_x) (View.ld x1 r0_w)⟩]

theorem cover0_2 (p0 : Vec F S1024x512 .bf16) (y : S1024x512.Idx) :
    ∃ pc ∈ ([⟨r0_w, p0⟩] : List (View.Piece (Elt F) S1024x512 .bf16)), y ∈ pc.1.set :=
  View.cover_of_tiled [⟨r0_w, p0⟩] S1024x512.size (by rfl) y

set_option maxHeartbeats 1000000 in
/-- The body on whole staging memrefs: the inputs stay, the output buffer ends at `out0_2` of the inputs. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1024x512 .bf16) (harg3 : arg3.IsWhole)
    (x0 : Vec F S1024x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kv_kernel i arg1 harg1 arg2 harg2 arg3 harg3) K := by
  simp only [cc0__kv_kernel_eq_skeleton]; unfold cc0__kv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Bits.AttnShared.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second pallas_call): what its three control cases share

The grid is 8 row blocks by 8 column blocks of the score matrix; point `t` is row block `t / 8`, column block
`t % 8`. At column block 0 the running maximum, the running denominator, the running numerator and the scaled
rows are reset; at column block 7 the quotient is stored to the output block. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the queries sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of keys sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions, over the grid -/

/-- "This is the first column block": the reset is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the quotient is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S1024x512 .f32 := (Memref.whole cc1_stg2_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The four scratch buffers: the running maximum, the running denominator, the running numerator, the scaled rows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x512 .f32 := scM1_2.view
abbrev VS1_3 : View sig .tc .vmem S1024x512 .bf16 := scM1_3.view

/-- The region's invariant with the four scratch buffers named: each owned at some contents, beside the other
    region's staging buffers and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.Bits.AttnRunA.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import proofs.«424223_j2963527434924_3_alg».proof.Proof.Bits.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST column block of a row block (the reset taken, the quotient not stored): on whole memrefs —
    the query block and the key block at their contents, the output buffer handed back untouched, the four scratch
    buffers at anything — it runs to the continuation with each scratch buffer holding the pieces its stores wrote.
    The pieces are found by the run. -/
noncomputable def kernelRun1_A (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) :
    Σ' (LS0 : List (View.Piece (Elt F) S1024x1 .f32)) (LS1 : List (View.Piece (Elt F) S1024x1 .f32)) (LS2 : List (View.Piece (Elt F) S1024x512 .f32)), { LS3 : List (View.Piece (Elt F) S1024x512 .bf16) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun xi2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; iexact HS3

end Cert.Kernel.Hand

end
-- ==== Proof.Bits.AttnRunB.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import proofs.«424223_j2963527434924_3_alg».proof.Proof.Bits.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE column block (no reset, the quotient not stored): on whole memrefs — the query block and the
    key block at their contents, the output buffer handed back untouched, the running maximum, denominator and
    numerator at what the point before left, the scaled rows at what the row block's first point left and kept — it runs to
    the continuation with the three running buffers holding the pieces its stores wrote. The pieces are found by the run. -/
noncomputable def kernelRun1_B (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16)
    (xs0 : Vec F S1024x1 .f32) (xs1 : Vec F S1024x1 .f32) (xs2 : Vec F S1024x512 .f32) (xs3 : Vec F S1024x512 .bf16) :
    Σ' (LS0 : List (View.Piece (Elt F) S1024x1 .f32)) (LS1 : List (View.Piece (Elt F) S1024x1 .f32)), { LS2 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; isplitr; · ipureintro; exact harg8.read_unread _
    iexact HS3

end Cert.Kernel.Hand

end
-- ==== Proof.Bits.AttnRunC.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import proofs.«424223_j2963527434924_3_alg».proof.Proof.Bits.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST column block of a row block (no reset, the quotient stored): as at a middle block, and the output
    buffer, found at anything, ends holding the pieces of the one store of the quotient. The pieces are found by the run. -/
noncomputable def kernelRun1_C (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16)
    (xs0 : Vec F S1024x1 .f32) (xs1 : Vec F S1024x1 .f32) (xs2 : Vec F S1024x512 .f32) (xs3 : Vec F S1024x512 .bf16) :
    Σ' (L2 : List (View.Piece (Elt F) S1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    iexists _; isplitr; · ipureintro; exact harg8.read_unread _
    iexact HS3

end Cert.Kernel.Hand

end
-- ==== Proof.Bits.Attn.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import proofs.«424223_j2963527434924_3_alg».proof.Proof.Bits.AttnRunA
import proofs.«424223_j2963527434924_3_alg».proof.Proof.Bits.AttnRunB
import proofs.«424223_j2963527434924_3_alg».proof.Proof.Bits.AttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, and the body at every point -/

theorem scover1_A_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x1.Idx) :
    ∃ pc ∈ (kernelRun1_A c i arg2 harg2 arg3 harg3 arg4 harg4 arg5 harg5 arg6 harg6 arg7 harg7 arg8 harg8 hc0 hc1 x0 x1).1, y ∈ pc.1.set :=
  View.cover_of_tiledL (kernelRun1_A c i arg2 harg2 arg3 harg3 arg4 harg4 arg5 harg5 arg6 harg6 arg7 harg7 arg8 harg8 hc0 hc1 x0 x1).1 S1024x1.size (by sl_kernel_rfl) y

/-- What case A leaves in scratch buffer 0: its pieces read back. -/
def sout1_A_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1).1)

theorem scover1_A_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x1.Idx) :
    ∃ pc ∈ (kernelRun1_A c i arg2 harg2 arg3 harg3 arg4 harg4 arg5 harg5 arg6 harg6 arg7 harg7 arg8 harg8 hc0 hc1 x0 x1).2.1, y ∈ pc.1.set :=
  View.cover_of_tiledL (kernelRun1_A c i arg2 harg2 arg3 harg3 arg4 harg4 arg5 harg5 arg6 harg6 arg7 harg7 arg8 harg8 hc0 hc1 x0 x1).2.1 S1024x1.size (by sl_kernel_rfl) y

/-- What case A leaves in scratch buffer 1: its pieces read back. -/
def sout1_A_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1).2.1)

theorem scover1_A_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x512.Idx) :
    ∃ pc ∈ (kernelRun1_A c i arg2 harg2 arg3 harg3 arg4 harg4 arg5 harg5 arg6 harg6 arg7 harg7 arg8 harg8 hc0 hc1 x0 x1).2.2.1, y ∈ pc.1.set :=
  View.cover_of_tiledL (kernelRun1_A c i arg2 harg2 arg3 harg3 arg4 harg4 arg5 harg5 arg6 harg6 arg7 harg7 arg8 harg8 hc0 hc1 x0 x1).2.2.1 S1024x512.size (by sl_kernel_rfl) y

/-- What case A leaves in scratch buffer 2: its pieces read back. -/
def sout1_A_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x512 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1).2.2.1)

theorem scover1_A_3 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x512.Idx) :
    ∃ pc ∈ (kernelRun1_A c i arg2 harg2 arg3 harg3 arg4 harg4 arg5 harg5 arg6 harg6 arg7 harg7 arg8 harg8 hc0 hc1 x0 x1).2.2.2.1, y ∈ pc.1.set :=
  View.cover_of_tiledL (kernelRun1_A c i arg2 harg2 arg3 harg3 arg4 harg4 arg5 harg5 arg6 harg6 arg7 harg7 arg8 harg8 hc0 hc1 x0 x1).2.2.2.1 S1024x512.size (by sl_kernel_rfl) y

/-- What case A leaves in scratch buffer 3: its pieces read back. -/
def sout1_A_3 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x512 .bf16 :=
  VS1_3.read (Elt F) (VS1_3.writes (Elt F) VS1_3.junk (kernelRun1_A c i arg2 harg2 arg3 harg3 arg4 harg4 arg5 harg5 arg6 harg6 arg7 harg7 arg8 harg8 hc0 hc1 x0 x1).2.2.2.1)

theorem scover1_B_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_B c i arg2 harg2 arg3 harg3 arg4 harg4 arg5 harg5 arg6 harg6 arg7 harg7 arg8 harg8 hc0 hc1 x0 x1 xs0 xs1 xs2 xs3).1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).1 S1024x1.size (by sl_kernel_rfl) y

/-- What case B leaves in scratch buffer 0: its pieces read back. -/
def sout1_B_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 xs0 xs1 xs2 xs3).1)

theorem scover1_B_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_B c i arg2 harg2 arg3 harg3 arg4 harg4 arg5 harg5 arg6 harg6 arg7 harg7 arg8 harg8 hc0 hc1 x0 x1 xs0 xs1 xs2 xs3).2.1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).2.1 S1024x1.size (by sl_kernel_rfl) y

/-- What case B leaves in scratch buffer 1: its pieces read back. -/
def sout1_B_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 xs0 xs1 xs2 xs3).2.1)

theorem scover1_B_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_B c i arg2 harg2 arg3 harg3 arg4 harg4 arg5 harg5 arg6 harg6 arg7 harg7 arg8 harg8 hc0 hc1 x0 x1 xs0 xs1 xs2 xs3).2.2.1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).2.2.1 S1024x512.size (by sl_kernel_rfl) y

/-- What case B leaves in scratch buffer 2: its pieces read back. -/
def sout1_B_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 xs0 xs1 xs2 xs3).2.2.1)

theorem scover1_C_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_C c i arg2 harg2 arg3 harg3 arg4 harg4 arg5 harg5 arg6 harg6 arg7 harg7 arg8 harg8 hc0 hc1 x0 x1 xs0 xs1 xs2 xs3).2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.1 S1024x1.size (by sl_kernel_rfl) y

/-- What case C leaves in scratch buffer 0: its pieces read back. -/
def sout1_C_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 xs0 xs1 xs2 xs3).2.1)

theorem scover1_C_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_C c i arg2 harg2 arg3 harg3 arg4 harg4 arg5 harg5 arg6 harg6 arg7 harg7 arg8 harg8 hc0 hc1 x0 x1 xs0 xs1 xs2 xs3).2.2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.2.1 S1024x1.size (by sl_kernel_rfl) y

/-- What case C leaves in scratch buffer 1: its pieces read back. -/
def sout1_C_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 xs0 xs1 xs2 xs3).2.2.1)

theorem scover1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_C c i arg2 harg2 arg3 harg3 arg4 harg4 arg5 harg5 arg6 harg6 arg7 harg7 arg8 harg8 hc0 hc1 x0 x1 xs0 xs1 xs2 xs3).2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.2.2.1 S1024x512.size (by sl_kernel_rfl) y

/-- What case C leaves in scratch buffer 2: its pieces read back. -/
def sout1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 xs0 xs1 xs2 xs3).2.2.2.1)

theorem cover1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_C c i arg2 harg2 arg3 harg3 arg4 harg4 arg5 harg5 arg6 harg6 arg7 harg7 arg8 harg8 hc0 hc1 x0 x1 xs0 xs1 xs2 xs3).1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).1 S1024x512.size (by sl_kernel_rfl) y

/-- What the last column block leaves in the output buffer: the one store of the quotient, read back. -/
def out1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VO1_2.read (Elt F) (VO1_2.writes (Elt F) VO1_2.junk (kernelRun1_C c i arg2 harg2 arg3 harg3 arg4 harg4 arg5 harg5 arg6 harg6 arg7 harg7 arg8 harg8 hc0 hc1 x0 x1 xs0 xs1 xs2 xs3).1)

/-! ## What the buffers hold after each point

A tuple: the output buffer, then the running maximum, the running denominator, the running numerator and the scaled
query rows. At a first column block everything is reset from the query block and the key block alone; at a later one
the three running buffers are updated from what the point before left, and the scaled rows are kept. -/

section
variable (V : (c : Dev nD) → (b : Ref sig .tc) → Buf (Elt F) ((c : Thread nD τ).loc b))

/-- A first column block. -/
def stepA (c : Dev nD) (t : Fin cfg1.N) (h0 : t.val % 8 = 0) : Vec F S1024x512 .f32 × Vec F S1024x1 .f32 × Vec F S1024x1 .f32 × Vec F S1024x512 .f32 × Vec F S1024x512 .bf16 :=
  (VO1_2.read (Elt F) VO1_2.junk,
   sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t))

/-- A middle column block, over what the point before left (`p`). -/
def stepB (c : Dev nD) (t : Fin cfg1.N) (h0 : ¬t.val % 8 = 0) (h1 : ¬t.val % 8 = 7) (p : Vec F S1024x512 .f32 × Vec F S1024x1 .f32 × Vec F S1024x1 .f32 × Vec F S1024x512 .f32 × Vec F S1024x512 .bf16) : Vec F S1024x512 .f32 × Vec F S1024x1 .f32 × Vec F S1024x1 .f32 × Vec F S1024x512 .f32 × Vec F S1024x512 .bf16 :=
  (VO1_2.read (Elt F) VO1_2.junk,
   sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   p.2.2.2.2)

/-- A last column block, over what the point before left (`p`). -/
def stepC (c : Dev nD) (t : Fin cfg1.N) (h0 : ¬t.val % 8 = 0) (h1 : t.val % 8 = 7) (p : Vec F S1024x512 .f32 × Vec F S1024x1 .f32 × Vec F S1024x1 .f32 × Vec F S1024x512 .f32 × Vec F S1024x512 .bf16) : Vec F S1024x512 .f32 × Vec F S1024x1 .f32 × Vec F S1024x1 .f32 × Vec F S1024x512 .f32 × Vec F S1024x512 .bf16 :=
  (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   p.2.2.2.2)

/-- The buffers after the point at position `n`, by recursion on the position. -/
def outsAt1 (c : Dev nD) : (n : ℕ) → n < cfg1.N → Vec F S1024x512 .f32 × Vec F S1024x1 .f32 × Vec F S1024x1 .f32 × Vec F S1024x512 .f32 × Vec F S1024x512 .bf16
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) :
    outsAt1 V c t.val t.isLt = stepA V c t h0 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point every scoped buffer at anything; afterwards the
    four scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)
end

section
variable (V : (c : Dev nD) → (b : Ref sig .tc) → Buf (Elt F) ((c : Thread nD τ).loc b))

set_option maxHeartbeats 8000000 in
/-- The body at any point: the closed forms of the two conditions say which of the three cases the point is in; the
    invariant hands the case's run the scratch buffers (at anything before the first point, else at what the point before
    left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have hc1 : ¬cond1_1 (grid1.coords t) := fun h => absurd ((hcond1_1 t).mp h) (by omega)
    rw [Dat.leavesExact_idle (dat1 V c) 2 t (idleAt1_2 t hc1) (noFlush1_2 t hc1)]
    rw [outsAt1_A V c t h0]
    unfold stepA sout1_A_0 sout1_A_1 sout1_A_2 sout1_A_3; (try dsimp only)
    by_cases hz : t.val = 0
    · rw [PhiS_castSucc V c t, PhiS_zero V c _ _ hz, PhiA1_eq]
      iintro ⟨⟨⟨Ha, Hb, Hc, Hd, He, HS0, HS1, HS2, HS3⟩, Hg⟩, Ho, ⟨%d0, H0⟩, ⟨%d1, H1⟩, ⟨%d2, H2⟩⟩
      iapply ((kernelRun1_A c (grid1.coords t) _ _ _ _ _ _ _ _ _ _ _ _ _ _ ((hcond1_0 t).mpr h0) (fun h => absurd ((hcond1_1 t).mp h) (by omega)) (iblk1 V c 0 t) (iblk1 V c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, ⟨%es0, HS0⟩, ⟨%es1, HS1⟩, ⟨%es2, HS2⟩, ⟨%es3, HS3⟩⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_A_0 c _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_A c (grid1.coords t) _ _ _ _ _ _ _ _ _ _ _ _ _ _ ((hcond1_0 t).mpr h0) (fun h => absurd ((hcond1_1 t).mp h) (by omega)) (iblk1 V c 0 t) (iblk1 V c 1 t)).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      isplitl [HS3]; · iexists _; iexact HS3
      iintro ⟨H0, H1, H2, ⟨%es0, HS0⟩, ⟨%es1, HS1⟩, ⟨%es2, HS2⟩, ⟨%es3, HS3⟩⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_A_0 c _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC out1_C_2 sout1_C_0 sout1_C_1 sout1_C_2; (try dsimp only)
      rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) _ _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      isplitl [HS3]; · iexact HS3
      iintro ⟨H0, H1, ⟨%e2, H2⟩, ⟨%es0, HS0⟩, ⟨%es1, HS1⟩, ⟨%es2, HS2⟩, HS3⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          iexact HS3
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _ _ _ _)
    · have hc1 : ¬cond1_1 (grid1.coords t) := fun h => h1 ((hcond1_1 t).mp h)
      rw [Dat.leavesExact_idle (dat1 V c) 2 t (idleAt1_2 t hc1) (noFlush1_2 t hc1)]
      rw [outsAt1_B V c t h0 h1]
      unfold stepB sout1_B_0 sout1_B_1 sout1_B_2; (try dsimp only)
      rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, ⟨%es0, HS0⟩, ⟨%es1, HS1⟩, ⟨%es2, HS2⟩, HS3⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          iexact HS3
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Ha, Hb, Hc, Hd, He, HS0, HS1, HS2, HS3⟩, Hg⟩
  isplitl [Ha Hb Hc Hd He HS0 HS1 HS2 HS3]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    isplitl [HS2]; · iexists _; iexact HS2
    iexists _; iexact HS3
  iexact Hg
end

end Cert.Kernel.Hand

end
-- ==== Proof.Bits.Run.lean ====
import proofs.«424223_j2963527434924_3_alg».proof.Proof.Gen.Kernel.Launch
import proofs.«424223_j2963527434924_3_alg».proof.Proof.Gen.Kernel.Skeleton
import proofs.«424223_j2963527434924_3_alg».proof.Proof.Gen.Kernel.Points
import proofs.«424223_j2963527434924_3_alg».proof.Proof.Bits.KvRegion
import proofs.«424223_j2963527434924_3_alg».proof.Proof.Bits.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the two regions one after the other

The first region is entered from the launch memory and leaves `kv` in its result array; the second is entered from that
and leaves the attention's result. Every other array stays as launched. -/

variable (m : (ℓ : Loc nD τ sig) → Buf (Elt F) ℓ) (ρ : Dev nD → PrngReg)

/-- Core `c`'s buffers at launch. -/
abbrev U0 : Dev nD → Valuation τ sig (Elt F) := fun c b => m (c, b)
abbrev E0 : (c : Dev nD) → (b : Ref sig .tc) → Buf (Elt F) ((c : Thread nD τ).loc b) := fun c b => U0 m c b
/-- After the first region: its arrays at what its write-backs leave, every other buffer as before. -/
def U1 (c : Dev nD) : Valuation τ sig (Elt F) :=
  Pipeline.withArrays spec0 c (U0 m c) fun w => (dat0 (E0 m) c).arrAt w cfg0.N
theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
abbrev E1 : (c : Dev nD) → (b : Ref sig .tc) → Buf (Elt F) ((c : Thread nD τ).loc b) := fun c b => U1 m c b
theorem hF0 (c : Dev nD) (w : Fin cfg0.W) : (dat0 (E0 m) c).arrAt w cfg0.N = E1 m c (Pipeline.arrRef spec0 w) :=
  (U1_arr m c w).symm
theorem hrest0 (c : Dev nD) : ∀ b, b ∉ Finset.univ.image (Pipeline.arrRef spec0) → E1 m c b = E0 m c b :=
  fun b hb => U1_of_ne m c b fun w e => hb (Finset.mem_image.mpr ⟨w, Finset.mem_univ _, e⟩)

/-- After the second region. -/
def U2 (c : Dev nD) : Valuation τ sig (Elt F) :=
  Pipeline.withArrays spec1 c (U1 m c) fun w => (dat1 (E1 m) c).arrAt w cfg1.N
theorem U2_arr (c : Dev nD) (w : Fin cfg1.W) :
    U2 m c (Proc.devRef .tc (Pipeline.arrRef spec1 w)) = (dat1 (E1 m) c).arrAt w cfg1.N := by
  unfold U2; exact Pipeline.withArrays_arr spec1 launch1.win.arr_inj c _ _ w
theorem U2_of_ne (c : Dev nD) (b : Ref sig .tc) (hb : ∀ w, Pipeline.arrRef spec1 w ≠ b) :
    U2 m c (Proc.devRef .tc b) = U1 m c (Proc.devRef .tc b) := by
  unfold U2; exact Pipeline.withArrays_of_ne spec1 c _ _ b hb
abbrev E2 : (c : Dev nD) → (b : Ref sig .tc) → Buf (Elt F) ((c : Thread nD τ).loc b) := fun c b => U2 m c b
theorem hF1 (c : Dev nD) (w : Fin cfg1.W) : (dat1 (E1 m) c).arrAt w cfg1.N = E2 m c (Pipeline.arrRef spec1 w) :=
  (U2_arr m c w).symm
theorem hrest1 (c : Dev nD) : ∀ b, b ∉ Finset.univ.image (Pipeline.arrRef spec1) → E2 m c b = E1 m c b :=
  fun b hb => U2_of_ne m c b fun w e => hb (Finset.mem_image.mpr ⟨w, Finset.mem_univ _, e⟩)

/-! ### The arguments end as launched -/

theorem U2_main_arg0 (c : Dev nD) : U2 m c (Proc.devRef .tc main_arg0) = m ((c : Thread nD τ).loc main_arg0) :=
  calc U2 m c (Proc.devRef .tc main_arg0)
    _ = U1 m c (Proc.devRef .tc main_arg0) := (U2_arr m c 0).trans (((dat1 (E1 m) c).arrAt_in 0 rfl _).trans (A_eq1 (E1 m) c 0))
    _ = U0 m c (Proc.devRef .tc main_arg0) := U1_of_ne m c main_arg0 (by decide)
    _ = m ((c : Thread nD τ).loc main_arg0) := rfl
theorem U2_main_arg1 (c : Dev nD) : U2 m c (Proc.devRef .tc main_arg1) = m ((c : Thread nD τ).loc main_arg1) :=
  calc U2 m c (Proc.devRef .tc main_arg1)
    _ = U1 m c (Proc.devRef .tc main_arg1) := U2_of_ne m c main_arg1 (by decide)
    _ = U0 m c (Proc.devRef .tc main_arg1) := (U1_arr m c 0).trans (((dat0 (E0 m) c).arrAt_in 0 rfl _).trans (A_eq0 (E0 m) c 0))
    _ = m ((c : Thread nD τ).loc main_arg1) := rfl
theorem U2_main_arg2 (c : Dev nD) : U2 m c (Proc.devRef .tc main_arg2) = m ((c : Thread nD τ).loc main_arg2) :=
  calc U2 m c (Proc.devRef .tc main_arg2)
    _ = U1 m c (Proc.devRef .tc main_arg2) := U2_of_ne m c main_arg2 (by decide)
    _ = U0 m c (Proc.devRef .tc main_arg2) := (U1_arr m c 1).trans (((dat0 (E0 m) c).arrAt_in 1 rfl _).trans (A_eq0 (E0 m) c 1))
    _ = m ((c : Thread nD τ).loc main_arg2) := rfl
/-- The result array ends at what the second region's write-backs leave. -/
theorem U2_main_v1 (c : Dev nD) : U2 m c (Proc.devRef .tc main_v1) = (dat1 (E1 m) c).arrAt 2 cfg1.N := U2_arr m c 2
/-- The second region reads `kv` as the first region left it. -/
theorem E1_main_v0 (c : Dev nD) : E1 m c main_v0 = (dat0 (E0 m) c).arrAt 2 cfg0.N := U1_arr m c 2
theorem E1_main_arg0 (c : Dev nD) : E1 m c main_arg0 = m ((c : Thread nD τ).loc main_arg0) := U1_of_ne m c main_arg0 (by decide)
theorem E0_main_arg1 (c : Dev nD) : E0 m c main_arg1 = m ((c : Thread nD τ).loc main_arg1) := rfl
theorem E0_main_arg2 (c : Dev nD) : E0 m c main_arg2 = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U2 m c) ∗ ∃ r, prngReg c r)

set_option backward.isDefEq.respectTransparency.types false in
/-- The first region as a segment: entered from the launch contents, left at `U1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's scoped buffers and the generator register, regrouped as the region's exit wants them. -/
theorem phiA1_split (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The second region as a segment: entered from `U1`, left at `U2`. Its invariant carries the four scratch buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (E1 m) c).Φ (Fin.last cfg1.N) from rfl]
    exact (hout1 (E1 m) c).trans (phiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting; the result array ends at what the second region's write-backs leave, the three arguments as launched. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2 m c b)
    (hfin := fun c s' => by
      iintro ⟨⟨Hh, -⟩, HSI⟩
      unfold StableHlo.held
      imodintro
      iapply (pointsTo_read_all (Pipeline.ucRefs τ sig) (fun b => (((c : Thread nD τ)).1, b)) (U2 m c) s')
      isplitl [Hh] <;> iassumption)
    (hQ := fun s h c =>
      ⟨(h c _ (mem_uc main_v1 (by decide))).trans (U2_main_v1 m c),
       (h c _ (mem_uc main_arg0 (by decide))).trans (U2_main_arg0 m c),
       (h c _ (mem_uc main_arg1 (by decide))).trans (U2_main_arg1 m c),
       (h c _ (mem_uc main_arg2 (by decide))).trans (U2_main_arg2 m c)⟩)

end Cert.Kernel.Hand

end
-- ==== Proof.KvRegion.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: one row block of `kv = X · D` per grid point

Each of the 16 points loads a block of 1024 rows of `X` and the whole of `D`, multiplies them and stores the
product as the matching row block of `kv`. Nothing is kept between points. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `X` sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `D`, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x1024 := Rect.unit (s := S1024x1024) ![0, 0] S1024x1024.size inb_S1024x1024_S1024x1024_0_0
abbrev r0_w : Rect S1024x512 := Rect.unit (s := S1024x512) ![0, 0] S1024x512.size inb_S1024x512_S1024x512_0_0

/-- What the body leaves in the output buffer: its one store, of the product of the two loaded blocks. -/
def out0_2 (x0 : Vec F S1024x1024 .f32) (x1 : Vec F S1024x512 .f32) : Vec F S1024x512 .bf16 :=
  View.canon [⟨r0_w, k0_pay1 (View.ld x0 r0_x) (View.ld x1 r0_w)⟩]

theorem cover0_2 (p0 : Vec F S1024x512 .bf16) (y : S1024x512.Idx) :
    ∃ pc ∈ ([⟨r0_w, p0⟩] : List (View.Piece (Elt F) S1024x512 .bf16)), y ∈ pc.1.set :=
  View.cover_of_tiled [⟨r0_w, p0⟩] S1024x512.size (by rfl) y

set_option maxHeartbeats 1000000 in
/-- The body on whole staging memrefs: the inputs stay, the output buffer ends at `out0_2` of the inputs. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S1024x512 .bf16) (harg3 : arg3.IsWhole)
    (x0 : Vec F S1024x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kv_kernel i arg1 harg1 arg2 harg2 arg3 harg3) K := by
  simp only [cc0__kv_kernel_eq_skeleton]; unfold cc0__kv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.AttnShared.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second pallas_call): what its three control cases share

The grid is 8 row blocks by 8 column blocks of the score matrix; point `t` is row block `t / 8`, column block
`t % 8`. At column block 0 the running maximum, the running denominator, the running numerator and the scaled
rows are reset; at column block 7 the quotient is stored to the output block. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the queries sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of keys sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions, over the grid -/

/-- "This is the first column block": the reset is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the quotient is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S1024x512 .f32 := (Memref.whole cc1_stg2_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The four scratch buffers: the running maximum, the running denominator, the running numerator, the scaled rows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x512 .f32 := Memref.whole cc1_scratch2
abbrev scM1_3 : Memref sig .tc .vmem S1024x512 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x512 .f32 := scM1_2.view
abbrev VS1_3 : View sig .tc .vmem S1024x512 .bf16 := scM1_3.view

/-- The region's invariant with the four scratch buffers named: each owned at some contents, beside the other
    region's staging buffers and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.AttnRunA.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST column block of a row block (the reset taken, the quotient not stored): on whole memrefs —
    the query block and the key block at their contents, the output buffer handed back untouched, the four scratch
    buffers at anything — it runs to the continuation with each scratch buffer holding the pieces its stores wrote.
    The pieces are found by the run. -/
noncomputable def kernelRun1_A (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) :
    Σ' (LS0 : List (View.Piece (Elt F) S1024x1 .f32)) (LS1 : List (View.Piece (Elt F) S1024x1 .f32)) (LS2 : List (View.Piece (Elt F) S1024x512 .f32)), { LS3 : List (View.Piece (Elt F) S1024x512 .bf16) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun xi2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; iexact HS3

end Cert.KernelIdeal.Hand

end
-- ==== Proof.AttnRunB.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE column block (no reset, the quotient not stored): on whole memrefs — the query block and the
    key block at their contents, the output buffer handed back untouched, the running maximum, denominator and
    numerator at what the point before left, the scaled rows at what the row block's first point left and kept — it runs to
    the continuation with the three running buffers holding the pieces its stores wrote. The pieces are found by the run. -/
noncomputable def kernelRun1_B (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16)
    (xs0 : Vec F S1024x1 .f32) (xs1 : Vec F S1024x1 .f32) (xs2 : Vec F S1024x512 .f32) (xs3 : Vec F S1024x512 .bf16) :
    Σ' (LS0 : List (View.Piece (Elt F) S1024x1 .f32)) (LS1 : List (View.Piece (Elt F) S1024x1 .f32)), { LS2 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi2 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    iexists _; isplitr; · ipureintro; exact harg8.read_unread _
    iexact HS3

end Cert.KernelIdeal.Hand

end
-- ==== Proof.AttnRunC.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.AttnShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST column block of a row block (no reset, the quotient stored): as at a middle block, and the output
    buffer, found at anything, ends holding the pieces of the one store of the quotient. The pieces are found by the run. -/
noncomputable def kernelRun1_C (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16)
    (xs0 : Vec F S1024x1 .f32) (xs1 : Vec F S1024x1 .f32) (xs2 : Vec F S1024x512 .f32) (xs3 : Vec F S1024x512 .bf16) :
    Σ' (L2 : List (View.Piece (Elt F) S1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    iexists _; isplitr; · ipureintro; exact harg8.read_unread _
    iexact HS3

end Cert.KernelIdeal.Hand

end
-- ==== Proof.Attn.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.AttnRunA
import proofs.«424223_j2963527434924_3_alg».proof.Proof.AttnRunB
import proofs.«424223_j2963527434924_3_alg».proof.Proof.AttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, and the body at every point -/

theorem scover1_A_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x1.Idx) :
    ∃ pc ∈ (kernelRun1_A c i arg2 harg2 arg3 harg3 arg4 harg4 arg5 harg5 arg6 harg6 arg7 harg7 arg8 harg8 hc0 hc1 x0 x1).1, y ∈ pc.1.set :=
  View.cover_of_tiledL (kernelRun1_A c i arg2 harg2 arg3 harg3 arg4 harg4 arg5 harg5 arg6 harg6 arg7 harg7 arg8 harg8 hc0 hc1 x0 x1).1 S1024x1.size (by sl_kernel_rfl) y

/-- What case A leaves in scratch buffer 0: its pieces read back. -/
def sout1_A_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1).1)

theorem scover1_A_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x1.Idx) :
    ∃ pc ∈ (kernelRun1_A c i arg2 harg2 arg3 harg3 arg4 harg4 arg5 harg5 arg6 harg6 arg7 harg7 arg8 harg8 hc0 hc1 x0 x1).2.1, y ∈ pc.1.set :=
  View.cover_of_tiledL (kernelRun1_A c i arg2 harg2 arg3 harg3 arg4 harg4 arg5 harg5 arg6 harg6 arg7 harg7 arg8 harg8 hc0 hc1 x0 x1).2.1 S1024x1.size (by sl_kernel_rfl) y

/-- What case A leaves in scratch buffer 1: its pieces read back. -/
def sout1_A_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1).2.1)

theorem scover1_A_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x512.Idx) :
    ∃ pc ∈ (kernelRun1_A c i arg2 harg2 arg3 harg3 arg4 harg4 arg5 harg5 arg6 harg6 arg7 harg7 arg8 harg8 hc0 hc1 x0 x1).2.2.1, y ∈ pc.1.set :=
  View.cover_of_tiledL (kernelRun1_A c i arg2 harg2 arg3 harg3 arg4 harg4 arg5 harg5 arg6 harg6 arg7 harg7 arg8 harg8 hc0 hc1 x0 x1).2.2.1 S1024x512.size (by sl_kernel_rfl) y

/-- What case A leaves in scratch buffer 2: its pieces read back. -/
def sout1_A_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x512 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1).2.2.1)

theorem scover1_A_3 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) (y : S1024x512.Idx) :
    ∃ pc ∈ (kernelRun1_A c i arg2 harg2 arg3 harg3 arg4 harg4 arg5 harg5 arg6 harg6 arg7 harg7 arg8 harg8 hc0 hc1 x0 x1).2.2.2.1, y ∈ pc.1.set :=
  View.cover_of_tiledL (kernelRun1_A c i arg2 harg2 arg3 harg3 arg4 harg4 arg5 harg5 arg6 harg6 arg7 harg7 arg8 harg8 hc0 hc1 x0 x1).2.2.2.1 S1024x512.size (by sl_kernel_rfl) y

/-- What case A leaves in scratch buffer 3: its pieces read back. -/
def sout1_A_3 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i)
    (x0 : Vec F S1024x512 .f32) (x1 : Vec F S2048x512 .bf16) : Vec F S1024x512 .bf16 :=
  VS1_3.read (Elt F) (VS1_3.writes (Elt F) VS1_3.junk (kernelRun1_A c i arg2 harg2 arg3 harg3 arg4 harg4 arg5 harg5 arg6 harg6 arg7 harg7 arg8 harg8 hc0 hc1 x0 x1).2.2.2.1)

theorem scover1_B_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_B c i arg2 harg2 arg3 harg3 arg4 harg4 arg5 harg5 arg6 harg6 arg7 harg7 arg8 harg8 hc0 hc1 x0 x1 xs0 xs1 xs2 xs3).1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).1 S1024x1.size (by sl_kernel_rfl) y

/-- What case B leaves in scratch buffer 0: its pieces read back. -/
def sout1_B_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 xs0 xs1 xs2 xs3).1)

theorem scover1_B_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_B c i arg2 harg2 arg3 harg3 arg4 harg4 arg5 harg5 arg6 harg6 arg7 harg7 arg8 harg8 hc0 hc1 x0 x1 xs0 xs1 xs2 xs3).2.1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).2.1 S1024x1.size (by sl_kernel_rfl) y

/-- What case B leaves in scratch buffer 1: its pieces read back. -/
def sout1_B_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 xs0 xs1 xs2 xs3).2.1)

theorem scover1_B_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_B c i arg2 harg2 arg3 harg3 arg4 harg4 arg5 harg5 arg6 harg6 arg7 harg7 arg8 harg8 hc0 hc1 x0 x1 xs0 xs1 xs2 xs3).2.2.1, y ∈ pc.1.set :=
  View.cover_of_tiledL (kernelRun1_B c i arg2 harg2 arg3 harg3 arg4 harg4 arg5 harg5 arg6 harg6 arg7 harg7 arg8 harg8 hc0 hc1 x0 x1 xs0 xs1 xs2 xs3).2.2.1 S1024x512.size (by sl_kernel_rfl) y

/-- What case B leaves in scratch buffer 2: its pieces read back. -/
def sout1_B_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 xs0 xs1 xs2 xs3).2.2.1)

theorem scover1_C_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_C c i arg2 harg2 arg3 harg3 arg4 harg4 arg5 harg5 arg6 harg6 arg7 harg7 arg8 harg8 hc0 hc1 x0 x1 xs0 xs1 xs2 xs3).2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.1 S1024x1.size (by sl_kernel_rfl) y

/-- What case C leaves in scratch buffer 0: its pieces read back. -/
def sout1_C_0 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 xs0 xs1 xs2 xs3).2.1)

theorem scover1_C_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x1.Idx) :
    ∃ pc ∈ (kernelRun1_C c i arg2 harg2 arg3 harg3 arg4 harg4 arg5 harg5 arg6 harg6 arg7 harg7 arg8 harg8 hc0 hc1 x0 x1 xs0 xs1 xs2 xs3).2.2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.2.1 S1024x1.size (by sl_kernel_rfl) y

/-- What case C leaves in scratch buffer 1: its pieces read back. -/
def sout1_C_1 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 xs0 xs1 xs2 xs3).2.2.1)

theorem scover1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_C c i arg2 harg2 arg3 harg3 arg4 harg4 arg5 harg5 arg6 harg6 arg7 harg7 arg8 harg8 hc0 hc1 x0 x1 xs0 xs1 xs2 xs3).2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).2.2.2.1 S1024x512.size (by sl_kernel_rfl) y

/-- What case C leaves in scratch buffer 2: its pieces read back. -/
def sout1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 xs0 xs1 xs2 xs3).2.2.2.1)

theorem cover1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) (y : S1024x512.Idx) :
    ∃ pc ∈ (kernelRun1_C c i arg2 harg2 arg3 harg3 arg4 harg4 arg5 harg5 arg6 harg6 arg7 harg7 arg8 harg8 hc0 hc1 x0 x1 xs0 xs1 xs2 xs3).1, y ∈ pc.1.set :=
  View.cover_of_tiledL (kernelRun1_C c i arg2 harg2 arg3 harg3 arg4 harg4 arg5 harg5 arg6 harg6 arg7 harg7 arg8 harg8 hc0 hc1 x0 x1 xs0 xs1 xs2 xs3).1 S1024x512.size (by sl_kernel_rfl) y

/-- What the last column block leaves in the output buffer: the one store of the quotient, read back. -/
def out1_C_2 (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i)
    (x0 : Vec F S1024x512 .f32) (x1 : Vec F S2048x512 .bf16) (xs0 : Vec F S1024x1 .f32) (xs1 : Vec F S1024x1 .f32) (xs2 : Vec F S1024x512 .f32) (xs3 : Vec F S1024x512 .bf16) : Vec F S1024x512 .f32 :=
  VO1_2.read (Elt F) (VO1_2.writes (Elt F) VO1_2.junk (kernelRun1_C c i arg2 harg2 arg3 harg3 arg4 harg4 arg5 harg5 arg6 harg6 arg7 harg7 arg8 harg8 hc0 hc1 x0 x1 xs0 xs1 xs2 xs3).1)

/-! ## What the buffers hold after each point

A tuple: the output buffer, then the running maximum, the running denominator, the running numerator and the scaled
query rows. At a first column block everything is reset from the query block and the key block alone; at a later one
the three running buffers are updated from what the point before left, and the scaled rows are kept. -/

section
variable (V : (c : Dev nD) → (b : Ref sig .tc) → Buf (Elt F) ((c : Thread nD τ).loc b))

/-- A first column block. -/
def stepA (c : Dev nD) (t : Fin cfg1.N) (h0 : t.val % 8 = 0) : Vec F S1024x512 .f32 × Vec F S1024x1 .f32 × Vec F S1024x1 .f32 × Vec F S1024x512 .f32 × Vec F S1024x512 .bf16 :=
  (VO1_2.read (Elt F) VO1_2.junk,
   sout1_A_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t),
   sout1_A_3 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) ((hcond1_0 t).mpr h0) (fun h => absurd ((hcond1_1 t).mp h) (by omega)) (iblk1 V c 0 t) (iblk1 V c 1 t))

/-- A middle column block, over what the point before left (`p`). -/
def stepB (c : Dev nD) (t : Fin cfg1.N) (h0 : ¬t.val % 8 = 0) (h1 : ¬t.val % 8 = 7) (p : Vec F S1024x512 .f32 × Vec F S1024x1 .f32 × Vec F S1024x1 .f32 × Vec F S1024x512 .f32 × Vec F S1024x512 .bf16) : Vec F S1024x512 .f32 × Vec F S1024x1 .f32 × Vec F S1024x1 .f32 × Vec F S1024x512 .f32 × Vec F S1024x512 .bf16 :=
  (VO1_2.read (Elt F) VO1_2.junk,
   sout1_B_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   sout1_B_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   sout1_B_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) p.2.1 p.2.2.1 p.2.2.2.1 p.2.2.2.2,
   p.2.2.2.2)

/-- A last column block, over what the point before left (`p`). -/
def stepC (c : Dev nD) (t : Fin cfg1.N) (h0 : ¬t.val % 8 = 0) (h1 : t.val % 8 = 7) (p : Vec F S1024x512 .f32 × Vec F S1024x1 .f32 × Vec F S1024x1 .f32 × Vec F S1024x512 .f32 × Vec F S1024x512 .bf16) : Vec F S1024x512 .f32 × Vec F S1024x1 .f32 × Vec F S1024x1 .f32 × Vec F S1024x512 .f32 × Vec F S1024x512 .bf16 :=
  (out1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_0 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_1 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   sout1_C_2 c (grid1.coords t) (ms1_0 t) (hs1_0 t) (ms1_1 t) (hs1_1 t) (ms1_2 t) (hs1_2 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) p.2.1 p.2.2.1 p.2.2.2.1 p.2.2.2.2,
   p.2.2.2.2)

/-- The buffers after the point at position `n`, by recursion on the position. -/
def outsAt1 (c : Dev nD) : (n : ℕ) → n < cfg1.N → Vec F S1024x512 .f32 × Vec F S1024x1 .f32 × Vec F S1024x1 .f32 × Vec F S1024x512 .f32 × Vec F S1024x512 .bf16
  | 0, hn => stepA V c ⟨0, hn⟩ (Nat.zero_mod _)
  | n + 1, hn =>
    if h0 : (n + 1) % 8 = 0 then stepA V c ⟨n + 1, hn⟩ h0
    else if h1 : (n + 1) % 8 = 7 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) :
    outsAt1 V c t.val t.isLt = stepA V c t h0 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point every scoped buffer at anything; afterwards the
    four scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)
end

section
variable (V : (c : Dev nD) → (b : Ref sig .tc) → Buf (Elt F) ((c : Thread nD τ).loc b))

set_option maxHeartbeats 8000000 in
/-- The body at any point: the closed forms of the two conditions say which of the three cases the point is in; the
    invariant hands the case's run the scratch buffers (at anything before the first point, else at what the point before
    left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have hc1 : ¬cond1_1 (grid1.coords t) := fun h => absurd ((hcond1_1 t).mp h) (by omega)
    rw [Dat.leavesExact_idle (dat1 V c) 2 t (idleAt1_2 t hc1) (noFlush1_2 t hc1)]
    rw [outsAt1_A V c t h0]
    unfold stepA sout1_A_0 sout1_A_1 sout1_A_2 sout1_A_3; (try dsimp only)
    by_cases hz : t.val = 0
    · rw [PhiS_castSucc V c t, PhiS_zero V c _ _ hz, PhiA1_eq]
      iintro ⟨⟨⟨Ha, Hb, Hc, Hd, He, HS0, HS1, HS2, HS3⟩, Hg⟩, Ho, ⟨%d0, H0⟩, ⟨%d1, H1⟩, ⟨%d2, H2⟩⟩
      iapply ((kernelRun1_A c (grid1.coords t) _ _ _ _ _ _ _ _ _ _ _ _ _ _ ((hcond1_0 t).mpr h0) (fun h => absurd ((hcond1_1 t).mp h) (by omega)) (iblk1 V c 0 t) (iblk1 V c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, ⟨%es0, HS0⟩, ⟨%es1, HS1⟩, ⟨%es2, HS2⟩, ⟨%es3, HS3⟩⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_A_0 c _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_A c (grid1.coords t) _ _ _ _ _ _ _ _ _ _ _ _ _ _ ((hcond1_0 t).mpr h0) (fun h => absurd ((hcond1_1 t).mp h) (by omega)) (iblk1 V c 0 t) (iblk1 V c 1 t)).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      isplitl [HS3]; · iexists _; iexact HS3
      iintro ⟨H0, H1, H2, ⟨%es0, HS0⟩, ⟨%es1, HS1⟩, ⟨%es2, HS2⟩, ⟨%es3, HS3⟩⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_A_0 c _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC out1_C_2 sout1_C_0 sout1_C_1 sout1_C_2; (try dsimp only)
      rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) _ _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      isplitl [HS3]; · iexact HS3
      iintro ⟨H0, H1, ⟨%e2, H2⟩, ⟨%es0, HS0⟩, ⟨%es1, HS1⟩, ⟨%es2, HS2⟩, HS3⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          iexact HS3
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _ _ _ _ _ _ _)
    · have hc1 : ¬cond1_1 (grid1.coords t) := fun h => h1 ((hcond1_1 t).mp h)
      rw [Dat.leavesExact_idle (dat1 V c) 2 t (idleAt1_2 t hc1) (noFlush1_2 t hc1)]
      rw [outsAt1_B V c t h0 h1]
      unfold stepB sout1_B_0 sout1_B_1 sout1_B_2; (try dsimp only)
      rw [PhiS_castSucc V c t, PhiS_pos V c _ _ hz]
      iintro ⟨⟨⟨Ha, Hb, Hc, Hd, He, HS0, HS1, HS2, HS3⟩, Hg⟩, Ho, ⟨%d0, H0⟩, ⟨%d1, H1⟩, ⟨%d2, H2⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, ⟨%es0, HS0⟩, ⟨%es1, HS1⟩, ⟨%es2, HS2⟩, HS3⟩
      isplitl [Ha Hb Hc Hd He HS0 HS1 HS2 HS3 Hg]
      · isplitl [Ha Hb Hc Hd He HS0 HS1 HS2 HS3]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          iexact HS3
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, their contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Ha, Hb, Hc, Hd, He, HS0, HS1, HS2, HS3⟩, Hg⟩
  isplitl [Ha Hb Hc Hd He HS0 HS1 HS2 HS3]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    isplitl [HS2]; · iexists _; iexact HS2
    iexists _; iexact HS3
  iexact Hg
end

end Cert.KernelIdeal.Hand

end
-- ==== Proof.Run.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.KvRegion
import proofs.«424223_j2963527434924_3_alg».proof.Proof.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the two regions one after the other

The first region is entered from the launch memory and leaves `kv` in its result array; the second is entered from that
and leaves the attention's result. Every other array stays as launched. -/

variable (m : (ℓ : Loc nD τ sig) → Buf (Elt F) ℓ) (ρ : Dev nD → PrngReg)

/-- Core `c`'s buffers at launch. -/
abbrev U0 : Dev nD → Valuation τ sig (Elt F) := fun c b => m (c, b)
abbrev E0 : (c : Dev nD) → (b : Ref sig .tc) → Buf (Elt F) ((c : Thread nD τ).loc b) := fun c b => U0 m c b
/-- After the first region: its arrays at what its write-backs leave, every other buffer as before. -/
def U1 (c : Dev nD) : Valuation τ sig (Elt F) :=
  Pipeline.withArrays spec0 c (U0 m c) fun w => (dat0 (E0 m) c).arrAt w cfg0.N
theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
abbrev E1 : (c : Dev nD) → (b : Ref sig .tc) → Buf (Elt F) ((c : Thread nD τ).loc b) := fun c b => U1 m c b
theorem hF0 (c : Dev nD) (w : Fin cfg0.W) : (dat0 (E0 m) c).arrAt w cfg0.N = E1 m c (Pipeline.arrRef spec0 w) :=
  (U1_arr m c w).symm
theorem hrest0 (c : Dev nD) : ∀ b, b ∉ Finset.univ.image (Pipeline.arrRef spec0) → E1 m c b = E0 m c b :=
  fun b hb => U1_of_ne m c b fun w e => hb (Finset.mem_image.mpr ⟨w, Finset.mem_univ _, e⟩)

/-- After the second region. -/
def U2 (c : Dev nD) : Valuation τ sig (Elt F) :=
  Pipeline.withArrays spec1 c (U1 m c) fun w => (dat1 (E1 m) c).arrAt w cfg1.N
theorem U2_arr (c : Dev nD) (w : Fin cfg1.W) :
    U2 m c (Proc.devRef .tc (Pipeline.arrRef spec1 w)) = (dat1 (E1 m) c).arrAt w cfg1.N := by
  unfold U2; exact Pipeline.withArrays_arr spec1 launch1.win.arr_inj c _ _ w
theorem U2_of_ne (c : Dev nD) (b : Ref sig .tc) (hb : ∀ w, Pipeline.arrRef spec1 w ≠ b) :
    U2 m c (Proc.devRef .tc b) = U1 m c (Proc.devRef .tc b) := by
  unfold U2; exact Pipeline.withArrays_of_ne spec1 c _ _ b hb
abbrev E2 : (c : Dev nD) → (b : Ref sig .tc) → Buf (Elt F) ((c : Thread nD τ).loc b) := fun c b => U2 m c b
theorem hF1 (c : Dev nD) (w : Fin cfg1.W) : (dat1 (E1 m) c).arrAt w cfg1.N = E2 m c (Pipeline.arrRef spec1 w) :=
  (U2_arr m c w).symm
theorem hrest1 (c : Dev nD) : ∀ b, b ∉ Finset.univ.image (Pipeline.arrRef spec1) → E2 m c b = E1 m c b :=
  fun b hb => U2_of_ne m c b fun w e => hb (Finset.mem_image.mpr ⟨w, Finset.mem_univ _, e⟩)

/-! ### The arguments end as launched -/

theorem U2_main_arg0 (c : Dev nD) : U2 m c (Proc.devRef .tc main_arg0) = m ((c : Thread nD τ).loc main_arg0) :=
  calc U2 m c (Proc.devRef .tc main_arg0)
    _ = U1 m c (Proc.devRef .tc main_arg0) := (U2_arr m c 0).trans (((dat1 (E1 m) c).arrAt_in 0 rfl _).trans (A_eq1 (E1 m) c 0))
    _ = U0 m c (Proc.devRef .tc main_arg0) := U1_of_ne m c main_arg0 (by decide)
    _ = m ((c : Thread nD τ).loc main_arg0) := rfl
theorem U2_main_arg1 (c : Dev nD) : U2 m c (Proc.devRef .tc main_arg1) = m ((c : Thread nD τ).loc main_arg1) :=
  calc U2 m c (Proc.devRef .tc main_arg1)
    _ = U1 m c (Proc.devRef .tc main_arg1) := U2_of_ne m c main_arg1 (by decide)
    _ = U0 m c (Proc.devRef .tc main_arg1) := (U1_arr m c 0).trans (((dat0 (E0 m) c).arrAt_in 0 rfl _).trans (A_eq0 (E0 m) c 0))
    _ = m ((c : Thread nD τ).loc main_arg1) := rfl
theorem U2_main_arg2 (c : Dev nD) : U2 m c (Proc.devRef .tc main_arg2) = m ((c : Thread nD τ).loc main_arg2) :=
  calc U2 m c (Proc.devRef .tc main_arg2)
    _ = U1 m c (Proc.devRef .tc main_arg2) := U2_of_ne m c main_arg2 (by decide)
    _ = U0 m c (Proc.devRef .tc main_arg2) := (U1_arr m c 1).trans (((dat0 (E0 m) c).arrAt_in 1 rfl _).trans (A_eq0 (E0 m) c 1))
    _ = m ((c : Thread nD τ).loc main_arg2) := rfl
/-- The result array ends at what the second region's write-backs leave. -/
theorem U2_main_v1 (c : Dev nD) : U2 m c (Proc.devRef .tc main_v1) = (dat1 (E1 m) c).arrAt 2 cfg1.N := U2_arr m c 2
/-- The second region reads `kv` as the first region left it. -/
theorem E1_main_v0 (c : Dev nD) : E1 m c main_v0 = (dat0 (E0 m) c).arrAt 2 cfg0.N := U1_arr m c 2
theorem E1_main_arg0 (c : Dev nD) : E1 m c main_arg0 = m ((c : Thread nD τ).loc main_arg0) := U1_of_ne m c main_arg0 (by decide)
theorem E0_main_arg1 (c : Dev nD) : E0 m c main_arg1 = m ((c : Thread nD τ).loc main_arg1) := rfl
theorem E0_main_arg2 (c : Dev nD) : E0 m c main_arg2 = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U2 m c) ∗ ∃ r, prngReg c r)

set_option backward.isDefEq.respectTransparency.types false in
/-- The first region as a segment: entered from the launch contents, left at `U1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's scoped buffers and the generator register, regrouped as the region's exit wants them. -/
theorem phiA1_split (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The second region as a segment: entered from `U1`, left at `U2`. Its invariant carries the four scratch buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (E1 m) c).Φ (Fin.last cfg1.N) from rfl]
    exact (hout1 (E1 m) c).trans (phiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting; the result array ends at what the second region's write-backs leave, the three arguments as launched. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2 m c b)
    (hfin := fun c s' => by
      iintro ⟨⟨Hh, -⟩, HSI⟩
      unfold StableHlo.held
      imodintro
      iapply (pointsTo_read_all (Pipeline.ucRefs τ sig) (fun b => (((c : Thread nD τ)).1, b)) (U2 m c) s')
      isplitl [Hh] <;> iassumption)
    (hQ := fun s h c =>
      ⟨(h c _ (mem_uc main_v1 (by decide))).trans (U2_main_v1 m c),
       (h c _ (mem_uc main_arg0 (by decide))).trans (U2_main_arg0 m c),
       (h c _ (mem_uc main_arg1 (by decide))).trans (U2_main_arg1 m c),
       (h c _ (mem_uc main_arg2 (by decide))).trans (U2_main_arg2 m c)⟩)

end Cert.KernelIdeal.Hand

end
-- ==== Proof.AttnPieces.lean ====
import proofs.«424223_j2963527434924_3_alg».proof.Proof.Gen.KernelIdeal.Launch
import proofs.«424223_j2963527434924_3_alg».proof.Proof.Gen.KernelIdeal.Skeleton
import proofs.«424223_j2963527434924_3_alg».proof.Proof.Gen.KernelIdeal.Points
import proofs.«424223_j2963527434924_3_alg».proof.Proof.Attn
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each case of the attention body leaves, as the body's arithmetic of what it found

At a first column block the four scratch buffers end at the update computed from the reset values; at a later one at the
update computed from what the point before left; at a last one the output buffer ends at the quotient of the new
numerator by the new denominator. -/

theorem hz2 : (![0, 0] : Fin 2 → Nat) = fun _ => 0 := funext fun a => by fin_cases a <;> rfl

theorem sout1_A_0_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i) (x0 : Vec F S1024x512 .f32) (x1 : Vec F S2048x512 .bf16) :
    sout1_A_0 c i arg2 harg2 arg3 harg3 arg4 harg4 arg5 harg5 arg6 harg6 arg7 harg7 arg8 harg8 hc0 hc1 x0 x1 = k1_pay1 (k1_pay9 (k1_pay6 x0) x1 k1_pay3) := by
  unfold sout1_A_0
  rw [View.read_writes_eq_canon _ _ _ (scover1_A_0 c i arg2 harg2 arg3 harg3 arg4 harg4 arg5 harg5 arg6 harg6 arg7 harg7 arg8 harg8 hc0 hc1 x0 x1)]
  unfold kernelRun1_A
  dsimp only
  sl_unfold_words
  rw [View.canon_cons_unit_zero (S := S1024x1) hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_A_1_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i) (x0 : Vec F S1024x512 .f32) (x1 : Vec F S2048x512 .bf16) :
    sout1_A_1 c i arg2 harg2 arg3 harg3 arg4 harg4 arg5 harg5 arg6 harg6 arg7 harg7 arg8 harg8 hc0 hc1 x0 x1 = k1_pay12 (k1_pay6 x0) x1 k1_pay3 k1_pay3 k1_pay4 := by
  unfold sout1_A_1
  rw [View.read_writes_eq_canon _ _ _ (scover1_A_1 c i arg2 harg2 arg3 harg3 arg4 harg4 arg5 harg5 arg6 harg6 arg7 harg7 arg8 harg8 hc0 hc1 x0 x1)]
  unfold kernelRun1_A
  dsimp only
  sl_unfold_words
  rw [View.canon_cons_unit_zero (S := S1024x1) hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_A_2_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i) (x0 : Vec F S1024x512 .f32) (x1 : Vec F S2048x512 .bf16) :
    sout1_A_2 c i arg2 harg2 arg3 harg3 arg4 harg4 arg5 harg5 arg6 harg6 arg7 harg7 arg8 harg8 hc0 hc1 x0 x1 = k1_pay13 (k1_pay6 x0) x1 k1_pay3 k1_pay3 k1_pay5 := by
  unfold sout1_A_2
  rw [View.read_writes_eq_canon _ _ _ (scover1_A_2 c i arg2 harg2 arg3 harg3 arg4 harg4 arg5 harg5 arg6 harg6 arg7 harg7 arg8 harg8 hc0 hc1 x0 x1)]
  unfold kernelRun1_A
  dsimp only
  sl_unfold_words
  rw [View.canon_cons_unit_zero (S := S1024x512) hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_A_3_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : cond1_0 i) (hc1 : ¬cond1_1 i) (x0 : Vec F S1024x512 .f32) (x1 : Vec F S2048x512 .bf16) :
    sout1_A_3 c i arg2 harg2 arg3 harg3 arg4 harg4 arg5 harg5 arg6 harg6 arg7 harg7 arg8 harg8 hc0 hc1 x0 x1 = k1_pay6 x0 := by
  unfold sout1_A_3
  rw [View.read_writes_eq_canon _ _ _ (scover1_A_3 c i arg2 harg2 arg3 harg3 arg4 harg4 arg5 harg5 arg6 harg6 arg7 harg7 arg8 harg8 hc0 hc1 x0 x1)]
  unfold kernelRun1_A
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_B_0_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_B_0 c i arg2 harg2 arg3 harg3 arg4 harg4 arg5 harg5 arg6 harg6 arg7 harg7 arg8 harg8 hc0 hc1 x0 x1 xs0 xs1 xs2 xs3 = k1_pay1 (k1_pay9 xs3 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 xs0 xs1 xs2 xs3)]
  unfold kernelRun1_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_B_1_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_B_1 c i arg2 harg2 arg3 harg3 arg4 harg4 arg5 harg5 arg6 harg6 arg7 harg7 arg8 harg8 hc0 hc1 x0 x1 xs0 xs1 xs2 xs3 = k1_pay12 xs3 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 xs0 xs1 xs2 xs3)]
  unfold kernelRun1_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_B_2_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : ¬cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_B_2 c i arg2 harg2 arg3 harg3 arg4 harg4 arg5 harg5 arg6 harg6 arg7 harg7 arg8 harg8 hc0 hc1 x0 x1 xs0 xs1 xs2 xs3 = k1_pay13 xs3 x1 xs0 xs0 xs2 := by
  unfold sout1_B_2
  rw [View.read_writes_eq_canon _ _ _ (scover1_B_2 c i arg2 harg2 arg3 harg3 arg4 harg4 arg5 harg5 arg6 harg6 arg7 harg7 arg8 harg8 hc0 hc1 x0 x1 xs0 xs1 xs2 xs3)]
  unfold kernelRun1_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_C_0_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_C_0 c i arg2 harg2 arg3 harg3 arg4 harg4 arg5 harg5 arg6 harg6 arg7 harg7 arg8 harg8 hc0 hc1 x0 x1 xs0 xs1 xs2 xs3 = k1_pay1 (k1_pay9 xs3 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 xs0 xs1 xs2 xs3)]
  unfold kernelRun1_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_C_1_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_C_1 c i arg2 harg2 arg3 harg3 arg4 harg4 arg5 harg5 arg6 harg6 arg7 harg7 arg8 harg8 hc0 hc1 x0 x1 xs0 xs1 xs2 xs3 = k1_pay12 xs3 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 xs0 xs1 xs2 xs3)]
  unfold kernelRun1_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem sout1_C_2_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    sout1_C_2 c i arg2 harg2 arg3 harg3 arg4 harg4 arg5 harg5 arg6 harg6 arg7 harg7 arg8 harg8 hc0 hc1 x0 x1 xs0 xs1 xs2 xs3 = k1_pay13 xs3 x1 xs0 xs0 xs2 := by
  unfold sout1_C_2
  rw [View.read_writes_eq_canon _ _ _ (scover1_C_2 c i arg2 harg2 arg3 harg3 arg4 harg4 arg5 harg5 arg6 harg6 arg7 harg7 arg8 harg8 hc0 hc1 x0 x1 xs0 xs1 xs2 xs3)]
  unfold kernelRun1_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

theorem out1_C_2_eq (c : Dev nD) (i : grid1.Coords) (arg2 : Memref sig .tc .vmem S1024x512 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x512 .bf16) (harg8 : arg8.IsWhole) (hc0 : ¬cond1_0 i) (hc1 : cond1_1 i) (x0 : Vec F S1024x512 .f32) (x1 : Vec F S2048x512 .bf16) (xs0 : Vec F S1024x1 .f32) (xs1 : Vec F S1024x1 .f32) (xs2 : Vec F S1024x512 .f32) (xs3 : Vec F S1024x512 .bf16) :
    out1_C_2 c i arg2 harg2 arg3 harg3 arg4 harg4 arg5 harg5 arg6 harg6 arg7 harg7 arg8 harg8 hc0 hc1 x0 x1 xs0 xs1 xs2 xs3 = k1_pay2 (k1_pay13 xs3 x1 xs0 xs0 xs2) (k1_pay12 xs3 x1 xs0 xs0 xs1) := by
  unfold out1_C_2
  rw [View.read_writes_eq_canon _ _ _ (cover1_C_2 c i arg2 harg2 arg3 harg3 arg4 harg4 arg5 harg5 arg6 harg6 arg7 harg7 arg8 harg8 hc0 hc1 x0 x1 xs0 xs1 xs2 xs3)]
  unfold kernelRun1_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1024x512) hz2, View.ld_unit_zero (S := S2048x512) hz2, View.ld_unit_zero (S := S1024x1) hz2, View.readCov_unit_zero (S := S1024x512) _ hz2, View.readCov_unit_zero (S := S1024x1) _ hz2]

end Cert.KernelIdeal.Hand

end
-- ==== Proof.PayIdealA.lean ====
import proofs.«424223_j2963527434924_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Analysis.SpecialFunctions.Exp

/-! # The kernels' arithmetic at the extended reals, on real data

Each lemma reads one store's value of one of the two kernels at an index, when the blocks it is computed from hold
real numbers: the value is then a real number, given by the textbook formula. -/

noncomputable section

namespace Cert.KernelIdeal.PayIdeal

open Cert.KernelIdeal Cert.KernelIdeal.Gen
open Idealize.ShloMosaic Idealize.ShloMosaic.ValueIdx

/-- A finite sum of real numbers, each read as an extended real, is the sum of the reals read as one. -/
theorem coe_finset_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-! ## The first kernel's matrix product: which entries of the two blocks a contraction index reads -/

/-- The left operand's row is the output's row. -/
theorem lhs_kv_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The left operand's column is the contraction index. -/
theorem lhs_kv_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q

/-- The right operand's row is the contraction index. -/
theorem rhs_kv_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q

/-- The right operand's column is the output's column. -/
theorem rhs_kv_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The first kernel's block of `kv = X · D`: the matrix product of the two blocks. -/
theorem pay0_real (x : Vec Ideal S1024x1024 .f32) (w : Vec Ideal S1024x512 .f32)
    (xR : Fin 1024 → Fin 1024 → ℝ) (wR : Fin 1024 → Fin 512 → ℝ)
    (hx : ∀ r k, x (ix2 r k) = ((xR r k : ℝ) : EReal)) (hw : ∀ k j, w (ix2 k j) = ((wR k j : ℝ) : EReal))
    (r : Fin 1024) (j : Fin 512) :
    k0_pay1 (F := Ideal) x w (ix2 r j) = ((∑ k, xR r k * wR k j : ℝ) : EReal) := by
  unfold k0_pay1
  refine (Ideal.matmul_constant_zero_apply dot_S1024x1024_S1024x512_S1024x512_1_0_0_1_n_n none
    (truncf .bf16 x bitsLt_bf16_f32) (truncf .bf16 w bitsLt_bf16_f32) (ix2 r j)).trans ?_
  rw [← Equiv.sum_comp (ValueIdx.contrEquiv1 dot_S1024x1024_S1024x512_S1024x512_1_0_0_1_n_n 1024 rfl rfl).symm,
    ← coe_finset_sum]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r j)
      ((ValueIdx.contrEquiv1 dot_S1024x1024_S1024x512_S1024x512_1_0_0_1_n_n 1024 rfl rfl).symm k) = ix2 r k :=
    funext fun a => Fin.ext (by
      match a with
      | ⟨0, _⟩ => exact lhs_kv_0 _ _
      | ⟨1, _⟩ => exact (lhs_kv_1 _ _).trans hk)
  have er : dot_S1024x1024_S1024x512_S1024x512_1_0_0_1_n_n.rhsIdx (ix2 r j)
      ((ValueIdx.contrEquiv1 dot_S1024x1024_S1024x512_S1024x512_1_0_0_1_n_n 1024 rfl rfl).symm k) = ix2 k j :=
    funext fun a => Fin.ext (by
      match a with
      | ⟨0, _⟩ => exact (rhs_kv_0 _ _).trans hk
      | ⟨1, _⟩ => exact rhs_kv_1 _ _)
  rw [truncf_apply, truncf_apply, el, er, hx, hw, EReal.coe_mul]

/-- The word `0xFF333332` encodes a finite real number: sign set, exponent field 254, not all ones. -/
theorem ofBits_init_max : ∃ ν : ℝ, Ideal.ofBits .f32 0xFF333332#32 = ((ν : ℝ) : EReal) := by
  apply Exists.intro
  simp only [Ideal.ofBits, Ideal.ieee]
  rw [if_neg (by decide), if_neg (by decide)]

/-- The word `0x3B000000` encodes `2⁻⁹ = 1/512`: sign clear, exponent field 118, significand zero. -/
theorem ofBits_scale : Ideal.ofBits .f32 0x3B000000#32 = ((1 / 512 : ℝ) : EReal) := by
  simp only [Ideal.ofBits, Ideal.ieee]
  rw [if_neg (by decide), if_neg (by decide)]
  refine congrArg _ ?_
  rw [if_neg (by decide), show (BitVec.extractLsb' 0 23 0x3B000000#32).toNat = 0 from by decide,
    show (BitVec.extractLsb' 23 8 0x3B000000#32).toNat = 118 from by decide]
  norm_num

/-- The running maximum starts from a finite number. -/
theorem pay3_real : ∃ ν : ℝ, ∀ i, k1_pay3 (F := Ideal) i = ((ν : ℝ) : EReal) := by
  obtain ⟨ν, hν⟩ := ofBits_init_max
  refine ⟨ν, fun i => ?_⟩
  unfold k1_pay3
  rw [shapeCast_self]
  exact hν

/-- The running denominator starts from zero. -/
theorem pay4_zero (i : S1024x1.Idx) : k1_pay4 (F := Ideal) i = ((0 : ℝ) : EReal) := by
  unfold k1_pay4
  rw [shapeCast_self]
  exact Ideal.ofBits_zero_f32.trans EReal.coe_zero.symm

/-- The running numerator starts from zero. -/
theorem pay5_zero (i : S1024x512.Idx) : k1_pay5 (F := Ideal) i = ((0 : ℝ) : EReal) := by
  unfold k1_pay5
  rw [shapeCast_self]
  exact Ideal.ofBits_zero_f32.trans EReal.coe_zero.symm

/-- The scaled query rows: each entry times `1/512`. -/
theorem pay6_real (x : Vec Ideal S1024x512 .f32) (xR : Fin 1024 → Fin 512 → ℝ)
    (hx : ∀ r d, x (ix2 r d) = ((xR r d : ℝ) : EReal)) (r : Fin 1024) (d : Fin 512) :
    k1_pay6 (F := Ideal) x (ix2 r d) = ((xR r d * (1 / 512) : ℝ) : EReal) := by
  unfold k1_pay6
  rw [shapeCast_self, truncf_apply, mulf_apply, broadcast_apply, hx, EReal.coe_mul]
  exact congrArg (_ * ·) ofBits_scale

/-- Storing the new maximum changes nothing of it. -/
theorem pay1_eq (v : FVec Ideal S1024x1 .f32) : k1_pay1 (F := Ideal) v = v := by
  unfold k1_pay1
  exact shapeCast_self v _

/-- The quotient stored at the last column block. -/
theorem pay2_real (acc : Vec Ideal S1024x512 .f32) (l : Vec Ideal S1024x1 .f32)
    (α : Fin 1024 → Fin 512 → ℝ) (lam : Fin 1024 → ℝ)
    (hacc : ∀ r d, acc (ix2 r d) = ((α r d : ℝ) : EReal)) (hl : ∀ r, l (ix2 r (0 : Fin 1)) = ((lam r : ℝ) : EReal))
    (hpos : ∀ r, lam r ≠ 0) (r : Fin 1024) (j : Fin 512) :
    k1_pay2 (F := Ideal) acc l (ix2 r j) = ((α r j / lam r : ℝ) : EReal) := by
  unfold k1_pay2
  have hb : broadcastTo S1024x512 l broadcasts_S1024x1_S1024x512 (ix2 r j) = l (ix2 r (0 : Fin 1)) :=
    broadcastTo_apply l broadcasts_S1024x1_S1024x512 (ix2 r j) (ix2 r (0 : Fin 1)) fun a => by
      match a with
      | ⟨0, _⟩ => show r.val = if (1024 : Nat) = 1 then 0 else r.val; rw [if_neg (by decide)]
      | ⟨1, _⟩ => show 0 = if (1 : Nat) = 1 then 0 else j.val; rw [if_pos rfl]
  rw [divf_apply, hb, hacc, hl, Ideal.div_coe (hpos r), ← EReal.coe_mul, mul_one_div]

end Cert.KernelIdeal.PayIdeal

end
-- ==== Proof.PayIdealB.lean ====
import proofs.«424223_j2963527434924_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Analysis.SpecialFunctions.Exp

/-! # The kernels' arithmetic at the extended reals, on real data

Each lemma reads one store's value of one of the two kernels at an index, when the blocks it is computed from hold
real numbers: the value is then a real number, given by the textbook formula. -/

noncomputable section

namespace Cert.KernelIdeal.PayIdeal

open Cert.KernelIdeal Cert.KernelIdeal.Gen
open Idealize.ShloMosaic Idealize.ShloMosaic.ValueIdx

/-! ## Sums and maxima of real numbers inside the extended reals -/

/-- A finite sum of real numbers, taken in the extended reals, is the real sum. -/
theorem payB_coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two real numbers, taken in the extended reals, is the real maximum. -/
theorem payB_coe_max (x y : ℝ) : max ((x : ℝ) : EReal) ((y : ℝ) : EReal) = ((max x y : ℝ) : EReal) :=
  (EReal.coe_strictMono.monotone.map_max).symm

/-- The maximum of a real number with the running maximum, started at `⊥`, of finitely many real numbers is the
    running maximum of the same numbers started at that real number: a real number. -/
theorem payB_max_fold {ι : Type} (s : Finset ι) (f : ι → ℝ) (b : ℝ) :
    max ((b : ℝ) : EReal) (s.fold max (⊥ : EReal) fun k => ((f k : ℝ) : EReal)) = ((s.fold max b f : ℝ) : EReal) := by
  classical
  induction s using Finset.induction_on with
  | empty => simp
  | insert a s ha ih =>
    rw [Finset.fold_insert ha, Finset.fold_insert ha, max_left_comm, ih, payB_coe_max]

/-- The word `0xFF800000` read as an f32 is `-∞`. -/
theorem payB_ofBits_neg_inf : Ideal.ofBits .f32 0xFF800000#32 = (⊥ : EReal) := by
  simp [Ideal.ofBits, Ideal.ieee]

/-! ## The keepdims layout steps -/

/-- An `[a]` array cast to `[a, 1]` reads, at `(i, u)`, the operand at `i`, whatever the unit coordinate `u`. -/
theorem payB_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem payB_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along axis 1 of a matrix inserts: row `r` with the coordinate `k` put back is `(r, k)`. -/
theorem payB_lift (r : Fin 1024) (k : Fin 2048) :
    reduces_S1024x2048_S1024.lift (ix1 r) k = ix2 r k :=
  funext fun a => Fin.ext (by
    match a with
    | ⟨0, _⟩ => rfl
    | ⟨1, _⟩ => rfl)

/-! ## The scores: the first product, contracting the feature axis of both operands -/

/-- The left operand of the scores' product is read at the output's row … -/
theorem payB_lhs8_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- … and at the contraction index, as its column; -/
theorem payB_lhs8_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand at the output's column, as its row, … -/
theorem payB_rhs8_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- … and at the contraction index, as its column. -/
theorem payB_rhs8_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The score of row `r` against key row `c`: the sum over the features of the products. -/
theorem payB_scores (e : Vec Ideal S1024x512 .bf16) (kv : Vec Ideal S2048x512 .bf16)
    (eR : Fin 1024 → Fin 512 → ℝ) (kvR : Fin 2048 → Fin 512 → ℝ)
    (he : ∀ r d, e (ix2 r d) = ((eR r d : ℝ) : EReal)) (hkv : ∀ c d, kv (ix2 c d) = ((kvR c d : ℝ) : EReal))
    (r : Fin 1024) (c : Fin 2048) :
    k1_pay8 (F := Ideal) e kv (ix2 r c) = ((∑ d, eR r d * kvR c d : ℝ) : EReal) := by
  unfold k1_pay8 k1_pay7
  simp only [shapeCast_self]
  refine (Ideal.matmul_constant_zero_apply (φ₁ := .bf16) (φ₂ := .bf16) dot_S1024x512_S2048x512_S1024x2048_1_1_0_0_n_n none e kv (ix2 r c)).trans ?_
  rw [← Equiv.sum_comp (ValueIdx.contrEquiv1 dot_S1024x512_S2048x512_S1024x2048_1_1_0_0_n_n 512 rfl rfl).symm, ← payB_coe_sum]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r c) ((ValueIdx.contrEquiv1 dot_S1024x512_S2048x512_S1024x2048_1_1_0_0_n_n 512 rfl rfl).symm k) = ix2 r k := funext fun a => Fin.ext (by
    match a with
    | ⟨0, _⟩ => exact payB_lhs8_0 _ _
    | ⟨1, _⟩ => exact (payB_lhs8_1 _ _).trans hk)
  have er : dot_S1024x512_S2048x512_S1024x2048_1_1_0_0_n_n.rhsIdx (ix2 r c) ((ValueIdx.contrEquiv1 dot_S1024x512_S2048x512_S1024x2048_1_1_0_0_n_n 512 rfl rfl).symm k) = ix2 c k := funext fun a => Fin.ext (by
    match a with
    | ⟨0, _⟩ => exact payB_rhs8_0 _ _
    | ⟨1, _⟩ => exact (payB_rhs8_1 _ _).trans hk)
  rw [el, er, he, hkv, EReal.coe_mul]

/-! ## The new running maximum -/

/-- The new running maximum of row `r`: the running maximum of the row's scores, started at the old maximum. -/
theorem payB_pay9_apply (e : Vec Ideal S1024x512 .bf16) (kv : Vec Ideal S2048x512 .bf16) (m : Vec Ideal S1024x1 .f32)
    (eR : Fin 1024 → Fin 512 → ℝ) (kvR : Fin 2048 → Fin 512 → ℝ) (μ : Fin 1024 → ℝ)
    (he : ∀ r d, e (ix2 r d) = ((eR r d : ℝ) : EReal)) (hkv : ∀ c d, kv (ix2 c d) = ((kvR c d : ℝ) : EReal))
    (hm : ∀ r, m (ix2 r (0 : Fin 1)) = ((μ r : ℝ) : EReal)) (r : Fin 1024) :
    k1_pay9 (F := Ideal) e kv m (ix2 r (0 : Fin 1))
      = (((Finset.univ : Finset (Fin 2048)).fold max (μ r) fun k => ∑ d, eR r d * kvR k d : ℝ) : EReal) := by
  unfold k1_pay9
  refine (maximumf_apply _ _ _).trans ?_
  rw [hm, payB_shapeCast_a_a1_apply]
  refine Eq.trans (congrArg (max _) ?_) (payB_max_fold _ _ _)
  refine (Ideal.multiReduction_maximumf_single (φ := .f32) _ _ _ _ _ _).trans ?_
  have hf : (k1_pay8 (F := Ideal) e kv ∘ reduces_S1024x2048_S1024.lift (ix1 r))
      = fun k : Fin 2048 => ((∑ d, eR r d * kvR k d : ℝ) : EReal) :=
    funext fun k => (congrArg (k1_pay8 (F := Ideal) e kv) (payB_lift r k)).trans (payB_scores e kv eR kvR he hkv r k)
  exact congrArg₂ (fun b f => Finset.fold max b f (Finset.univ : Finset (Fin 2048))) payB_ofBits_neg_inf hf

/-! ## The two rescaling factors -/

/-- The factor that rescales the old sums from the old maximum to the new one. -/
theorem payB_pay10_apply (e : Vec Ideal S1024x512 .bf16) (kv : Vec Ideal S2048x512 .bf16) (m : Vec Ideal S1024x1 .f32)
    (μ μ' : Fin 1024 → ℝ)
    (hm : ∀ r, m (ix2 r (0 : Fin 1)) = ((μ r : ℝ) : EReal))
    (hm' : ∀ r, k1_pay9 (F := Ideal) e kv m (ix2 r (0 : Fin 1)) = ((μ' r : ℝ) : EReal)) (r : Fin 1024) :
    k1_pay10 (F := Ideal) e kv m m (ix2 r (0 : Fin 1)) = ((Real.exp (μ r - μ' r) : ℝ) : EReal) := by
  unfold k1_pay10
  show Ideal.exp (m (ix2 r (0 : Fin 1)) - k1_pay9 (F := Ideal) e kv m (ix2 r (0 : Fin 1))) = _
  rw [hm, hm', ← EReal.coe_sub, Ideal.exp_coe]

/-- The exponential of a score less its row's new maximum. -/
theorem payB_pay11_apply (e : Vec Ideal S1024x512 .bf16) (kv : Vec Ideal S2048x512 .bf16) (m : Vec Ideal S1024x1 .f32)
    (eR : Fin 1024 → Fin 512 → ℝ) (kvR : Fin 2048 → Fin 512 → ℝ) (μ' : Fin 1024 → ℝ)
    (he : ∀ r d, e (ix2 r d) = ((eR r d : ℝ) : EReal)) (hkv : ∀ c d, kv (ix2 c d) = ((kvR c d : ℝ) : EReal))
    (hm' : ∀ r, k1_pay9 (F := Ideal) e kv m (ix2 r (0 : Fin 1)) = ((μ' r : ℝ) : EReal)) (r : Fin 1024) (c : Fin 2048) :
    k1_pay11 (F := Ideal) e kv m (ix2 r c) = ((Real.exp ((∑ d, eR r d * kvR c d) - μ' r) : ℝ) : EReal) := by
  unfold k1_pay11
  show Ideal.exp (k1_pay8 (F := Ideal) e kv (ix2 r c)
    - broadcastTo S1024x2048 (k1_pay9 (F := Ideal) e kv m) broadcasts_S1024x1_S1024x2048 (ix2 r c)) = _
  rw [payB_scores e kv eR kvR he hkv, payB_broadcastTo_a1_ab_apply, hm', ← EReal.coe_sub, Ideal.exp_coe]

/-! ## The block's sum of exponentials -/

/-- The sum along row `r` of the block's exponentials. -/
theorem payB_rowsum (e : Vec Ideal S1024x512 .bf16) (kv : Vec Ideal S2048x512 .bf16) (m : Vec Ideal S1024x1 .f32)
    (eR : Fin 1024 → Fin 512 → ℝ) (kvR : Fin 2048 → Fin 512 → ℝ) (μ' : Fin 1024 → ℝ)
    (he : ∀ r d, e (ix2 r d) = ((eR r d : ℝ) : EReal)) (hkv : ∀ c d, kv (ix2 c d) = ((kvR c d : ℝ) : EReal))
    (hm' : ∀ r, k1_pay9 (F := Ideal) e kv m (ix2 r (0 : Fin 1)) = ((μ' r : ℝ) : EReal)) (r : Fin 1024) :
    multiReduction (F := Ideal) .add [1] S1024 (k1_pay11 (F := Ideal) e kv m) 0x00000000#32 reduces_S1024x2048_S1024 (.inl rfl) rfl (ix1 r)
      = ((∑ c : Fin 2048, Real.exp ((∑ d, eR r d * kvR c d) - μ' r) : ℝ) : EReal) := by
  refine (Ideal.multiReduction_add_single (φ := .f32) _ _ _ _ _ _).trans ?_
  rw [← payB_coe_sum]
  exact Finset.sum_congr rfl fun k _ =>
    (congrArg (k1_pay11 (F := Ideal) e kv m) (payB_lift r k)).trans (payB_pay11_apply e kv m eR kvR μ' he hkv hm' r k)

/-! ## The second product: the exponentials against the block's rows, contracting the key axis -/

/-- The left operand of the second product is read at the output's row … -/
theorem payB_lhs13_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- … and at the contraction index, as its column; -/
theorem payB_lhs13_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
/-- the right operand at the contraction index, as its row, … -/
theorem payB_rhs13_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
/-- … and at the output's column. -/
theorem payB_rhs13_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Row `r` of the exponentials against column `j` of the block: the sum over the block's rows. -/
theorem payB_pv (e : Vec Ideal S1024x512 .bf16) (kv : Vec Ideal S2048x512 .bf16) (m : Vec Ideal S1024x1 .f32)
    (eR : Fin 1024 → Fin 512 → ℝ) (kvR : Fin 2048 → Fin 512 → ℝ) (μ' : Fin 1024 → ℝ)
    (he : ∀ r d, e (ix2 r d) = ((eR r d : ℝ) : EReal)) (hkv : ∀ c d, kv (ix2 c d) = ((kvR c d : ℝ) : EReal))
    (hm' : ∀ r, k1_pay9 (F := Ideal) e kv m (ix2 r (0 : Fin 1)) = ((μ' r : ℝ) : EReal)) (r : Fin 1024) (j : Fin 512) :
    matmul (F := Ideal) dot_S1024x2048_S2048x512_S1024x512_1_0_0_1_n_n none (truncf .bf16 (k1_pay11 (F := Ideal) e kv m) bitsLt_bf16_f32)
        (k1_pay7 (F := Ideal) kv) (constant S1024x512 .f32 0x00000000#32) (ix2 r j)
      = ((∑ c : Fin 2048, Real.exp ((∑ d, eR r d * kvR c d) - μ' r) * kvR c j : ℝ) : EReal) := by
  unfold k1_pay7
  simp only [shapeCast_self]
  refine (Ideal.matmul_constant_zero_apply (φ₁ := .bf16) (φ₂ := .bf16) dot_S1024x2048_S2048x512_S1024x512_1_0_0_1_n_n none _ kv (ix2 r j)).trans ?_
  rw [← Equiv.sum_comp (ValueIdx.contrEquiv1 dot_S1024x2048_S2048x512_S1024x512_1_0_0_1_n_n 2048 rfl rfl).symm, ← payB_coe_sum]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 r j) ((ValueIdx.contrEquiv1 dot_S1024x2048_S2048x512_S1024x512_1_0_0_1_n_n 2048 rfl rfl).symm k) = ix2 r k := funext fun a => Fin.ext (by
    match a with
    | ⟨0, _⟩ => exact payB_lhs13_0 _ _
    | ⟨1, _⟩ => exact (payB_lhs13_1 _ _).trans hk)
  have er : dot_S1024x2048_S2048x512_S1024x512_1_0_0_1_n_n.rhsIdx (ix2 r j) ((ValueIdx.contrEquiv1 dot_S1024x2048_S2048x512_S1024x512_1_0_0_1_n_n 2048 rfl rfl).symm k) = ix2 k j := funext fun a => Fin.ext (by
    match a with
    | ⟨0, _⟩ => exact (payB_rhs13_0 _ _).trans hk
    | ⟨1, _⟩ => exact payB_rhs13_1 _ _)
  rw [el, er, truncf_apply, payB_pay11_apply e kv m eR kvR μ' he hkv hm', hkv, EReal.coe_mul]

/-! ## The three readings -/

/-- The new running maximum of a row is a real number (the old maximum is real, the scores are real). -/
theorem pay9_real (e : Vec Ideal S1024x512 .bf16) (kv : Vec Ideal S2048x512 .bf16) (m : Vec Ideal S1024x1 .f32)
    (eR : Fin 1024 → Fin 512 → ℝ) (kvR : Fin 2048 → Fin 512 → ℝ) (μ : Fin 1024 → ℝ)
    (he : ∀ r d, e (ix2 r d) = ((eR r d : ℝ) : EReal)) (hkv : ∀ c d, kv (ix2 c d) = ((kvR c d : ℝ) : EReal))
    (hm : ∀ r, m (ix2 r (0 : Fin 1)) = ((μ r : ℝ) : EReal)) :
    ∃ μ' : Fin 1024 → ℝ, ∀ r, k1_pay9 (F := Ideal) e kv m (ix2 r (0 : Fin 1)) = ((μ' r : ℝ) : EReal) := by
  exact ⟨fun r => (Finset.univ : Finset (Fin 2048)).fold max (μ r) fun k => ∑ d, eR r d * kvR k d,
    fun r => payB_pay9_apply e kv m eR kvR μ he hkv hm r⟩

/-- The new running denominator: the old one rescaled from the old maximum to the new, plus the block's exponentials. -/
theorem pay12_real (e : Vec Ideal S1024x512 .bf16) (kv : Vec Ideal S2048x512 .bf16) (m l : Vec Ideal S1024x1 .f32)
    (eR : Fin 1024 → Fin 512 → ℝ) (kvR : Fin 2048 → Fin 512 → ℝ) (μ μ' lam : Fin 1024 → ℝ)
    (he : ∀ r d, e (ix2 r d) = ((eR r d : ℝ) : EReal)) (hkv : ∀ c d, kv (ix2 c d) = ((kvR c d : ℝ) : EReal))
    (hm : ∀ r, m (ix2 r (0 : Fin 1)) = ((μ r : ℝ) : EReal))
    (hm' : ∀ r, k1_pay9 (F := Ideal) e kv m (ix2 r (0 : Fin 1)) = ((μ' r : ℝ) : EReal))
    (hl : ∀ r, l (ix2 r (0 : Fin 1)) = ((lam r : ℝ) : EReal)) (r : Fin 1024) :
    k1_pay12 (F := Ideal) e kv m m l (ix2 r (0 : Fin 1))
      = ((Real.exp (μ r - μ' r) * lam r + ∑ c : Fin 2048, Real.exp ((∑ d, eR r d * kvR c d) - μ' r) : ℝ) : EReal) := by
  unfold k1_pay12
  simp only [shapeCast_self]
  refine (addf_apply _ _ _).trans ?_
  rw [mulf_apply, payB_pay10_apply e kv m μ μ' hm hm', hl, payB_shapeCast_a_a1_apply,
    payB_rowsum e kv m eR kvR μ' he hkv hm', ← EReal.coe_mul, ← EReal.coe_add]

/-- The new running numerator: the old one rescaled, plus the block's exponentials times the block's rows of `kv`. -/
theorem pay13_real (e : Vec Ideal S1024x512 .bf16) (kv : Vec Ideal S2048x512 .bf16) (m : Vec Ideal S1024x1 .f32)
    (acc : Vec Ideal S1024x512 .f32)
    (eR : Fin 1024 → Fin 512 → ℝ) (kvR : Fin 2048 → Fin 512 → ℝ) (μ μ' : Fin 1024 → ℝ) (α : Fin 1024 → Fin 512 → ℝ)
    (he : ∀ r d, e (ix2 r d) = ((eR r d : ℝ) : EReal)) (hkv : ∀ c d, kv (ix2 c d) = ((kvR c d : ℝ) : EReal))
    (hm : ∀ r, m (ix2 r (0 : Fin 1)) = ((μ r : ℝ) : EReal))
    (hm' : ∀ r, k1_pay9 (F := Ideal) e kv m (ix2 r (0 : Fin 1)) = ((μ' r : ℝ) : EReal))
    (hacc : ∀ r d, acc (ix2 r d) = ((α r d : ℝ) : EReal)) (r : Fin 1024) (j : Fin 512) :
    k1_pay13 (F := Ideal) e kv m m acc (ix2 r j)
      = ((Real.exp (μ r - μ' r) * α r j + ∑ c : Fin 2048, Real.exp ((∑ d, eR r d * kvR c d) - μ' r) * kvR c j : ℝ) : EReal) := by
  unfold k1_pay13
  simp only [shapeCast_self]
  refine (addf_apply _ _ _).trans ?_
  rw [mulf_apply, payB_broadcastTo_a1_ab_apply, payB_pay10_apply e kv m μ μ' hm hm', hacc,
    payB_pv e kv m eR kvR μ' he hkv hm', ← EReal.coe_mul, ← EReal.coe_add]

end Cert.KernelIdeal.PayIdeal

end
-- ==== Proof.Spec.lean ====
import Mathlib.Analysis.SpecialFunctions.Exp
import Mathlib.Algebra.BigOperators.Intervals
import Mathlib.Algebra.BigOperators.Field
import Mathlib.Algebra.Order.BigOperators.Ring.Finset

/-! # Attention with a running softmax, over the reals

`kv = X · D`; the score of query row `b` against key row `n` is `(enc b · kv n) / 512`; the result is the
softmax of the scores along `n`, times `kv`. The softmax is invariant under a shift of the exponents by any
real, per row: this is why a running maximum that starts from an arbitrary finite number gives the same quotient
as the reference's row maximum. -/

noncomputable section

namespace Cert.Spec

open Finset

/-- `kv = X · D`. -/
def kvR (XR : Fin 16384 → Fin 1024 → ℝ) (DR : Fin 1024 → Fin 512 → ℝ) (n : Fin 16384) (d : Fin 512) : ℝ :=
  ∑ k, XR n k * DR k d

/-- The score as the reference computes it: the inner product, then the division by 512. -/
def scoreR (encR : Fin 8192 → Fin 512 → ℝ) (XR : Fin 16384 → Fin 1024 → ℝ) (DR : Fin 1024 → Fin 512 → ℝ)
    (b : Fin 8192) (n : Fin 16384) : ℝ :=
  (∑ d, encR b d * kvR XR DR n d) / 512

/-- The score as the kernel computes it: the query row scaled by `2⁻⁹` first. -/
def scoreK (encR : Fin 8192 → Fin 512 → ℝ) (XR : Fin 16384 → Fin 1024 → ℝ) (DR : Fin 1024 → Fin 512 → ℝ)
    (b : Fin 8192) (n : Fin 16384) : ℝ :=
  ∑ d, (encR b d * (1 / 512)) * kvR XR DR n d

theorem scoreK_eq (encR : Fin 8192 → Fin 512 → ℝ) (XR : Fin 16384 → Fin 1024 → ℝ) (DR : Fin 1024 → Fin 512 → ℝ)
    (b : Fin 8192) (n : Fin 16384) : scoreK encR XR DR b n = scoreR encR XR DR b n := by
  unfold scoreK scoreR
  rw [Finset.sum_div]
  exact Finset.sum_congr rfl fun d _ => by ring

/-- The largest score of a row. -/
def rowMax (encR : Fin 8192 → Fin 512 → ℝ) (XR : Fin 16384 → Fin 1024 → ℝ) (DR : Fin 1024 → Fin 512 → ℝ)
    (b : Fin 8192) : ℝ :=
  Finset.univ.sup' Finset.univ_nonempty (scoreR encR XR DR b)

/-- The reference: softmax of the scores (shifted by the row maximum), times `kv`. -/
def refZ (encR : Fin 8192 → Fin 512 → ℝ) (XR : Fin 16384 → Fin 1024 → ℝ) (DR : Fin 1024 → Fin 512 → ℝ)
    (b : Fin 8192) (d : Fin 512) : ℝ :=
  ∑ n, (Real.exp (scoreR encR XR DR b n - rowMax encR XR DR b)
      / ∑ n', Real.exp (scoreR encR XR DR b n' - rowMax encR XR DR b)) * kvR XR DR n d

/-- The running form after all key rows, the exponents shifted by ANY real `μ`: numerator over denominator. -/
def onlineZ (encR : Fin 8192 → Fin 512 → ℝ) (XR : Fin 16384 → Fin 1024 → ℝ) (DR : Fin 1024 → Fin 512 → ℝ)
    (μ : ℝ) (b : Fin 8192) (d : Fin 512) : ℝ :=
  (∑ n, Real.exp (scoreK encR XR DR b n - μ) * kvR XR DR n d) / ∑ n, Real.exp (scoreK encR XR DR b n - μ)

/-- A weighted sum of exponentials over a sum of exponentials does not depend on the common shift. -/
theorem shift_invariant {ι : Type*} (s : Finset ι) (hs : s.Nonempty) (f g : ι → ℝ) (μ M : ℝ) :
    (∑ n ∈ s, Real.exp (f n - μ) * g n) / (∑ n ∈ s, Real.exp (f n - μ))
      = ∑ n ∈ s, (Real.exp (f n - M) / ∑ n' ∈ s, Real.exp (f n' - M)) * g n := by
  have hpos : 0 < ∑ n' ∈ s, Real.exp (f n' - M) := Finset.sum_pos (fun _ _ => Real.exp_pos _) hs
  have hE : ∀ n, Real.exp (f n - μ) = Real.exp (M - μ) * Real.exp (f n - M) := fun n => by
    rw [← Real.exp_add]; congr 1; ring
  have hnum : ∑ n ∈ s, Real.exp (f n - μ) * g n = Real.exp (M - μ) * ∑ n ∈ s, Real.exp (f n - M) * g n := by
    rw [Finset.mul_sum]; exact Finset.sum_congr rfl fun n _ => by rw [hE n]; ring
  have hden : ∑ n ∈ s, Real.exp (f n - μ) = Real.exp (M - μ) * ∑ n ∈ s, Real.exp (f n - M) := by
    rw [Finset.mul_sum]; exact Finset.sum_congr rfl fun n _ => hE n
  rw [hnum, hden, mul_div_mul_left _ _ (Real.exp_pos _).ne', Finset.sum_div]
  exact Finset.sum_congr rfl fun n _ => by rw [div_mul_eq_mul_div]

/-- The kernel's quotient, for any shift, is the reference's result. -/
theorem onlineZ_eq_refZ (encR : Fin 8192 → Fin 512 → ℝ) (XR : Fin 16384 → Fin 1024 → ℝ) (DR : Fin 1024 → Fin 512 → ℝ)
    (μ : ℝ) (b : Fin 8192) (d : Fin 512) : onlineZ encR XR DR μ b d = refZ encR XR DR b d := by
  unfold onlineZ refZ
  simp only [scoreK_eq]
  exact shift_invariant Finset.univ Finset.univ_nonempty _ _ μ _

/-! ## The running sums, block of columns by block of columns

The partial sums over the first `N` key rows, the exponents shifted by `μ`, as sums over `range N` of functions on
`ℕ` (a function on `Fin 16384` is extended by zero). -/

/-- A function on `Fin N` as one on `ℕ`. -/
def ext {N : ℕ} (f : Fin N → ℝ) (n : ℕ) : ℝ := if h : n < N then f ⟨n, h⟩ else 0

theorem ext_of_lt {N : ℕ} (f : Fin N → ℝ) (n : ℕ) (h : n < N) : ext f n = f ⟨n, h⟩ := dif_pos h

theorem sum_range_ext {N : ℕ} (f : Fin N → ℝ) : ∑ n ∈ range N, ext f n = ∑ n, f n := by
  rw [Finset.sum_range]; exact Finset.sum_congr rfl fun n _ => ext_of_lt f n.val n.isLt

/-- One step of the running sums: rescale what the first `n₀` columns gave from the old shift `μ` to the new one
    `μ'`, and add the next `C` columns at the new shift. -/
theorem online_step (f g : ℕ → ℝ) (n₀ C : ℕ) (μ μ' : ℝ) :
    Real.exp (μ - μ') * (∑ n ∈ range n₀, Real.exp (f n - μ) * g n) + ∑ c ∈ range C, Real.exp (f (n₀ + c) - μ') * g (n₀ + c)
      = ∑ n ∈ range (n₀ + C), Real.exp (f n - μ') * g n := by
  rw [Finset.sum_range_add, Finset.mul_sum]
  congr 1
  exact Finset.sum_congr rfl fun n _ => by rw [← mul_assoc, ← Real.exp_add]; congr 2; ring

end Cert.Spec

end
-- ==== Proof.AttnValue.lean ====
import proofs.«424223_j2963527434924_3_alg».proof.Proof.AttnPieces
import proofs.«424223_j2963527434924_3_alg».proof.Proof.PayIdealA
import proofs.«424223_j2963527434924_3_alg».proof.Proof.PayIdealB
import proofs.«424223_j2963527434924_3_alg».proof.Proof.Spec
import Idealize.ShloMosaic.Lib.Pipeline.Value
import Idealize.ShloMosaic.Lib.ValueIdx
import Idealize.ShloMosaic.PureOps.Ideal.Laws

set_option maxRecDepth 16384

/-! # The attention region's result array, over the reals

For a row of queries, after the column blocks `0 … k` the running maximum is SOME real `μ`, the running denominator
is `∑ exp (s n - μ)` over the key rows seen so far and the running numerator `∑ exp (s n - μ) · kv n`: one step
rescales both from the old `μ` to the new one and adds the new block's terms. After the last block the stored
quotient is the softmax-weighted sum of the rows of `kv`, whatever the `μ`. -/

noncomputable section

namespace Cert.KernelIdeal.Hand

open Cert.KernelIdeal Cert.KernelIdeal.Gen Cert.KernelIdeal.PayIdeal Cert.Spec
open Idealize.ShloMosaic Idealize.ShloMosaic.TcCoe Idealize.ShloMosaic.ValueIdx
open Idealize.SL Idealize.SL.Sem
open Idealize.ShloMosaic.Pipeline (Dat Cfg Window)
open Finset

/-! ## One step of the running sums, on real data -/

theorem step_real (e : Vec Ideal S1024x512 .bf16) (kv : Vec Ideal S2048x512 .bf16) (m l : Vec Ideal S1024x1 .f32)
    (acc : Vec Ideal S1024x512 .f32)
    (eR : Fin 1024 → Fin 512 → ℝ) (kvR : Fin 2048 → Fin 512 → ℝ) (μ lam : Fin 1024 → ℝ) (α : Fin 1024 → Fin 512 → ℝ)
    (he : ∀ r d, e (ix2 r d) = ((eR r d : ℝ) : EReal)) (hkv : ∀ c d, kv (ix2 c d) = ((kvR c d : ℝ) : EReal))
    (hm : ∀ r, m (ix2 r (0 : Fin 1)) = ((μ r : ℝ) : EReal))
    (hl : ∀ r, l (ix2 r (0 : Fin 1)) = ((lam r : ℝ) : EReal))
    (hacc : ∀ r d, acc (ix2 r d) = ((α r d : ℝ) : EReal))
    (f : Fin 1024 → ℕ → ℝ) (g : Fin 512 → ℕ → ℝ) (n₀ : ℕ)
    (hS : ∀ r (c : Fin 2048), (∑ d, eR r d * kvR c d) = f r (n₀ + c.val))
    (hg : ∀ (c : Fin 2048) j, kvR c j = g j (n₀ + c.val))
    (hlam : ∀ r, lam r = ∑ n ∈ range n₀, Real.exp (f r n - μ r))
    (hα : ∀ r j, α r j = ∑ n ∈ range n₀, Real.exp (f r n - μ r) * g j n) :
    ∃ μ' : Fin 1024 → ℝ,
      (∀ r, k1_pay1 (F := Ideal) (k1_pay9 (F := Ideal) e kv m) (ix2 r (0 : Fin 1)) = ((μ' r : ℝ) : EReal))
      ∧ (∀ r, k1_pay12 (F := Ideal) e kv m m l (ix2 r (0 : Fin 1))
          = ((∑ n ∈ range (n₀ + 2048), Real.exp (f r n - μ' r) : ℝ) : EReal))
      ∧ (∀ r j, k1_pay13 (F := Ideal) e kv m m acc (ix2 r j)
          = ((∑ n ∈ range (n₀ + 2048), Real.exp (f r n - μ' r) * g j n : ℝ) : EReal)) := by
  obtain ⟨μ', hμ'⟩ := pay9_real e kv m eR kvR μ he hkv hm
  refine ⟨μ', fun r => by rw [pay1_eq]; exact hμ' r, fun r => ?_, fun r j => ?_⟩
  · rw [pay12_real e kv m l eR kvR μ μ' lam he hkv hm hμ' hl r]
    refine congrArg (fun x : ℝ => (x : EReal)) ?_
    have h := online_step (f r) (fun _ => 1) n₀ 2048 (μ r) (μ' r)
    simp only [mul_one] at h
    have e : ∑ c : Fin 2048, Real.exp ((∑ d, eR r d * kvR c d) - μ' r)
        = ∑ c ∈ range 2048, Real.exp (f r (n₀ + c) - μ' r) := by
      rw [Finset.sum_range]; exact Finset.sum_congr rfl fun c _ => by rw [hS r c]
    rw [e, hlam r]; exact h
  · rw [pay13_real e kv m acc eR kvR μ μ' α he hkv hm hμ' hacc r j]
    refine congrArg (fun x : ℝ => (x : EReal)) ?_
    have h := online_step (f r) (g j) n₀ 2048 (μ r) (μ' r)
    have e : ∑ c : Fin 2048, Real.exp ((∑ d, eR r d * kvR c d) - μ' r) * kvR c j
        = ∑ c ∈ range 2048, Real.exp (f r (n₀ + c) - μ' r) * g j (n₀ + c) := by
      rw [Finset.sum_range]; exact Finset.sum_congr rfl fun c _ => by rw [hS r c, hg c j]
    rw [e, hα r j]; exact h

/-! ## Rows, columns, and the scores as functions on `ℕ` -/

/-- Row `r` of row block `q`. -/
def rowOf (q : ℕ) (r : Fin 1024) : Fin 8192 := ⟨q % 8 * 1024 + r.val, by have := Nat.mod_lt q (by norm_num : 8 > 0); have := r.isLt; omega⟩
/-- Key row `cc` of column block `k`. -/
def colOf (k : ℕ) (cc : Fin 2048) : Fin 16384 := ⟨k % 8 * 2048 + cc.val, by have := Nat.mod_lt k (by norm_num : 8 > 0); have := cc.isLt; omega⟩

variable (encR : Fin 8192 → Fin 512 → ℝ) (kvv : Fin 16384 → Fin 512 → ℝ)

/-- The score of query row `b` against key row `n`, the query row scaled first. -/
def sc (b : Fin 8192) (n : Fin 16384) : ℝ := ∑ d, (encR b d * (1 / 512)) * kvv n d
def scN (b : Fin 8192) : ℕ → ℝ := ext (sc encR kvv b)
def kvN (j : Fin 512) : ℕ → ℝ := ext (fun n => kvv n j)

theorem scN_col (b : Fin 8192) (k : ℕ) (hk : k < 8) (cc : Fin 2048) :
    scN encR kvv b (k * 2048 + cc.val) = sc encR kvv b (colOf k cc) := by
  unfold scN
  rw [ext_of_lt _ _ (by have := cc.isLt; omega)]
  refine congrArg _ (Fin.ext ?_)
  show k * 2048 + cc.val = k % 8 * 2048 + cc.val
  rw [Nat.mod_eq_of_lt hk]

theorem kvN_col (j : Fin 512) (k : ℕ) (hk : k < 8) (cc : Fin 2048) :
    kvN kvv j (k * 2048 + cc.val) = kvv (colOf k cc) j := by
  unfold kvN
  rw [ext_of_lt _ _ (by have := cc.isLt; omega)]
  refine congrArg (fun n => kvv n j) (Fin.ext ?_)
  show k * 2048 + cc.val = k % 8 * 2048 + cc.val
  rw [Nat.mod_eq_of_lt hk]

/-- What the five buffers hold for row block `q` after column block `k`. -/
def Inv (q k : ℕ) (p : Vec Ideal S1024x512 .f32 × Vec Ideal S1024x1 .f32 × Vec Ideal S1024x1 .f32 × Vec Ideal S1024x512 .f32 × Vec Ideal S1024x512 .bf16) : Prop :=
  ∃ μ : Fin 1024 → ℝ,
    (∀ r, p.2.1 (ix2 r (0 : Fin 1)) = ((μ r : ℝ) : EReal))
    ∧ (∀ r, p.2.2.1 (ix2 r (0 : Fin 1))
        = ((∑ n ∈ range ((k + 1) * 2048), Real.exp (scN encR kvv (rowOf q r) n - μ r) : ℝ) : EReal))
    ∧ (∀ r j, p.2.2.2.1 (ix2 r j)
        = ((∑ n ∈ range ((k + 1) * 2048), Real.exp (scN encR kvv (rowOf q r) n - μ r) * kvN kvv j n : ℝ) : EReal))
    ∧ (∀ r d, p.2.2.2.2 (ix2 r d) = ((encR (rowOf q r) d * (1 / 512) : ℝ) : EReal))
    ∧ (k = 7 → ∀ r j, p.1 (ix2 r j)
        = (((∑ n ∈ range 16384, Real.exp (scN encR kvv (rowOf q r) n - μ r) * kvN kvv j n)
            / (∑ n ∈ range 16384, Real.exp (scN encR kvv (rowOf q r) n - μ r)) : ℝ) : EReal))

/-! ## The blocks the body finds -/

variable (V : (c : Dev nD) → (b : Ref sig .tc) → Buf (Elt Ideal) ((c : Thread nD τ).loc b))

abbrev qblk (c : Dev nD) (t : Fin cfg1.N) : Vec Ideal S1024x512 .f32 := iblk1 V c 0 t
abbrev kblk (c : Dev nD) (t : Fin cfg1.N) : Vec Ideal S2048x512 .bf16 := iblk1 V c 1 t

theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0)

theorem qblk_apply (c : Dev nD) (t : Fin cfg1.N) (r : Fin 1024) (d : Fin 512) :
    qblk V c t (ix2 r d) = V c main_arg0 (ix2 (rowOf (t.val / 8) r) d) := by
  show V c main_arg0 (((cfg1.win 0).blk t).view.emb (ix2 r d)) = V c main_arg0 _
  refine congrArg _ (funext fun a => Fin.ext ?_)
  obtain ⟨e0, e1, -⟩ := idx_facts1 t
  have hN : t.val < 64 := lt_of_lt_of_eq t.isLt N_1
  match a with
  | ⟨0, _⟩ =>
    show win1_0.index t (0 : Fin 2) * 1024 + 1 * r.val = t.val / 8 % 8 * 1024 + r.val
    rw [e0, Nat.mod_eq_of_lt (by omega)]; omega
  | ⟨1, _⟩ =>
    show win1_0.index t (1 : Fin 2) * 512 + 1 * d.val = d.val
    rw [e1]; omega

theorem kblk_apply (c : Dev nD) (t : Fin cfg1.N) (cc : Fin 2048) (d : Fin 512) :
    kblk V c t (ix2 cc d) = V c main_v0 (ix2 (colOf (t.val % 8) cc) d) := by
  show V c main_v0 (((cfg1.win 1).blk t).view.emb (ix2 cc d)) = V c main_v0 _
  refine congrArg _ (funext fun a => Fin.ext ?_)
  obtain ⟨-, -, e2, e3, -⟩ := idx_facts1 t
  match a with
  | ⟨0, _⟩ =>
    show win1_1.index t (0 : Fin 2) * 2048 + 1 * cc.val = t.val % 8 % 8 * 2048 + cc.val
    rw [e2, Nat.mod_mod]; omega
  | ⟨1, _⟩ =>
    show win1_1.index t (1 : Fin 2) * 512 + 1 * d.val = d.val
    rw [e3]; omega

/-! ## The invariant, point by point -/

variable (c : Dev nD)
  (henc : ∀ b d, V c main_arg0 (ix2 b d) = ((encR b d : ℝ) : EReal))
  (hkv : ∀ n d, V c main_v0 (ix2 n d) = ((kvv n d : ℝ) : EReal))

include henc hkv in
/-- One point's update of real running buffers for row block `t / 8` at column block `t % 8`. -/
theorem step_at (t : Fin cfg1.N) (e : Vec Ideal S1024x512 .bf16) (m l : Vec Ideal S1024x1 .f32) (acc : Vec Ideal S1024x512 .f32)
    (μ : Fin 1024 → ℝ)
    (he : ∀ r d, e (ix2 r d) = ((encR (rowOf (t.val / 8) r) d * (1 / 512) : ℝ) : EReal))
    (hm : ∀ r, m (ix2 r (0 : Fin 1)) = ((μ r : ℝ) : EReal))
    (hl : ∀ r, l (ix2 r (0 : Fin 1))
        = ((∑ n ∈ range (t.val % 8 * 2048), Real.exp (scN encR kvv (rowOf (t.val / 8) r) n - μ r) : ℝ) : EReal))
    (hacc : ∀ r j, acc (ix2 r j)
        = ((∑ n ∈ range (t.val % 8 * 2048), Real.exp (scN encR kvv (rowOf (t.val / 8) r) n - μ r) * kvN kvv j n : ℝ) : EReal)) :
    ∃ μ' : Fin 1024 → ℝ,
      (∀ r, k1_pay1 (F := Ideal) (k1_pay9 (F := Ideal) e (kblk V c t) m) (ix2 r (0 : Fin 1)) = ((μ' r : ℝ) : EReal))
      ∧ (∀ r, k1_pay12 (F := Ideal) e (kblk V c t) m m l (ix2 r (0 : Fin 1))
          = ((∑ n ∈ range ((t.val % 8 + 1) * 2048), Real.exp (scN encR kvv (rowOf (t.val / 8) r) n - μ' r) : ℝ) : EReal))
      ∧ (∀ r j, k1_pay13 (F := Ideal) e (kblk V c t) m m acc (ix2 r j)
          = ((∑ n ∈ range ((t.val % 8 + 1) * 2048), Real.exp (scN encR kvv (rowOf (t.val / 8) r) n - μ' r) * kvN kvv j n : ℝ) : EReal)) := by
  have hk : t.val % 8 < 8 := Nat.mod_lt _ (by norm_num)
  have hr : (t.val % 8 + 1) * 2048 = t.val % 8 * 2048 + 2048 := by ring
  rw [hr]
  exact step_real e (kblk V c t) m l acc
    (fun r d => encR (rowOf (t.val / 8) r) d * (1 / 512)) (fun cc d => kvv (colOf (t.val % 8) cc) d) μ
    (fun r => ∑ n ∈ range (t.val % 8 * 2048), Real.exp (scN encR kvv (rowOf (t.val / 8) r) n - μ r))
    (fun r j => ∑ n ∈ range (t.val % 8 * 2048), Real.exp (scN encR kvv (rowOf (t.val / 8) r) n - μ r) * kvN kvv j n)
    he (fun cc d => (kblk_apply V c t cc d).trans (hkv _ _)) hm hl hacc
    (fun r => scN encR kvv (rowOf (t.val / 8) r)) (kvN kvv) (t.val % 8 * 2048)
    (fun r cc => (scN_col encR kvv _ _ hk cc).symm) (fun cc j => (kvN_col kvv j _ hk cc).symm)
    (fun r => rfl) (fun r j => rfl)

include henc hkv in
theorem inv_A (t : Fin cfg1.N) (h0 : t.val % 8 = 0) :
    Inv encR kvv (t.val / 8) (t.val % 8) (stepA V c t h0) := by
  obtain ⟨ν, hν⟩ := pay3_real
  have he := pay6_real (qblk V c t) (fun r d => encR (rowOf (t.val / 8) r) d)
    (fun r d => (qblk_apply V c t r d).trans (henc _ _))
  obtain ⟨μ', h1, h2, h3⟩ := step_at encR kvv V c henc hkv t (k1_pay6 (F := Ideal) (qblk V c t)) (k1_pay3 (F := Ideal)) (k1_pay4 (F := Ideal)) (k1_pay5 (F := Ideal))
    (fun _ => ν) he (fun r => hν _)
    (fun r => by rw [h0, Nat.zero_mul, Finset.range_zero, Finset.sum_empty]; exact pay4_zero _)
    (fun r j => by rw [h0, Nat.zero_mul, Finset.range_zero, Finset.sum_empty]; exact pay5_zero _)
  unfold Inv
  refine ⟨μ', fun r => ?_, fun r => ?_, fun r j => ?_, fun r d => ?_, fun h7 => absurd h7 (by omega)⟩
  · unfold stepA; dsimp only
    rw [sout1_A_0_eq]; exact h1 r
  · unfold stepA; dsimp only
    rw [sout1_A_1_eq]; exact h2 r
  · unfold stepA; dsimp only
    rw [sout1_A_2_eq]; exact h3 r j
  · unfold stepA; dsimp only
    rw [sout1_A_3_eq]; exact he r d

include henc hkv in
theorem inv_B (t : Fin cfg1.N) (h0 : ¬t.val % 8 = 0) (h1 : ¬t.val % 8 = 7) (p : Vec Ideal S1024x512 .f32 × Vec Ideal S1024x1 .f32 × Vec Ideal S1024x1 .f32 × Vec Ideal S1024x512 .f32 × Vec Ideal S1024x512 .bf16)
    (hp : Inv encR kvv (t.val / 8) (t.val % 8 - 1) p) :
    Inv encR kvv (t.val / 8) (t.val % 8) (stepB V c t h0 h1 p) := by
  unfold Inv at hp ⊢
  obtain ⟨μ, hm, hl, hacc, he, -⟩ := hp
  have hk : t.val % 8 - 1 + 1 = t.val % 8 := by omega
  rw [hk] at hl hacc
  obtain ⟨μ', g1, g2, g3⟩ := step_at encR kvv V c henc hkv t p.2.2.2.2 p.2.1 p.2.2.1 p.2.2.2.1 μ he hm hl hacc
  refine ⟨μ', fun r => ?_, fun r => ?_, fun r j => ?_, fun r d => ?_, fun h7 => absurd h7 h1⟩
  · unfold stepB; dsimp only
    rw [sout1_B_0_eq]; exact g1 r
  · unfold stepB; dsimp only
    rw [sout1_B_1_eq]; exact g2 r
  · unfold stepB; dsimp only
    rw [sout1_B_2_eq]; exact g3 r j
  · unfold stepB; dsimp only
    exact he r d

include henc hkv in
theorem inv_C (t : Fin cfg1.N) (h0 : ¬t.val % 8 = 0) (h1 : t.val % 8 = 7) (p : Vec Ideal S1024x512 .f32 × Vec Ideal S1024x1 .f32 × Vec Ideal S1024x1 .f32 × Vec Ideal S1024x512 .f32 × Vec Ideal S1024x512 .bf16)
    (hp : Inv encR kvv (t.val / 8) (t.val % 8 - 1) p) :
    Inv encR kvv (t.val / 8) (t.val % 8) (stepC V c t h0 h1 p) := by
  unfold Inv at hp ⊢
  obtain ⟨μ, hm, hl, hacc, he, -⟩ := hp
  have hk : t.val % 8 - 1 + 1 = t.val % 8 := by omega
  rw [hk] at hl hacc
  obtain ⟨μ', g1, g2, g3⟩ := step_at encR kvv V c henc hkv t p.2.2.2.2 p.2.1 p.2.2.1 p.2.2.2.1 μ he hm hl hacc
  have h16 : (t.val % 8 + 1) * 2048 = 16384 := by rw [h1]
  rw [h16] at g2 g3
  refine ⟨μ', fun r => ?_, fun r => ?_, fun r j => ?_, fun r d => ?_, fun _ r j => ?_⟩
  · unfold stepC; dsimp only
    rw [sout1_C_0_eq]; exact g1 r
  · unfold stepC; dsimp only
    rw [sout1_C_1_eq, h16]; exact g2 r
  · unfold stepC; dsimp only
    rw [sout1_C_2_eq, h16]; exact g3 r j
  · unfold stepC; dsimp only
    exact he r d
  · unfold stepC; dsimp only
    rw [out1_C_2_eq]
    refine pay2_real _ _
      (fun r j => ∑ n ∈ range 16384, Real.exp (scN encR kvv (rowOf (t.val / 8) r) n - μ' r) * kvN kvv j n)
      (fun r => ∑ n ∈ range 16384, Real.exp (scN encR kvv (rowOf (t.val / 8) r) n - μ' r)) g3 g2
      (fun r => (Finset.sum_pos (fun _ _ => Real.exp_pos _) (by simp)).ne') r j

include henc hkv in
/-- The invariant holds after every point. -/
theorem inv_all : ∀ (n : ℕ) (t : Fin cfg1.N), t.val = n →
    Inv encR kvv (t.val / 8) (t.val % 8) (outsAt1 V c t.val t.isLt) := by
  intro n
  induction n with
  | zero =>
    intro t ht
    have h0 : t.val % 8 = 0 := by omega
    rw [outsAt1_A V c t h0]
    exact inv_A encR kvv V c henc hkv t h0
  | succ n ih =>
    intro t ht
    have hN : t.val < 64 := lt_of_lt_of_eq t.isLt N_1
    by_cases h0 : t.val % 8 = 0
    · rw [outsAt1_A V c t h0]
      exact inv_A encR kvv V c henc hkv t h0
    · have ihp := ih ⟨t.val - 1, Nat.lt_of_le_of_lt (Nat.sub_le _ _) t.isLt⟩ (by show t.val - 1 = n; omega)
      have e1 : (t.val - 1) / 8 = t.val / 8 := by omega
      have e2 : (t.val - 1) % 8 = t.val % 8 - 1 := by omega
      simp only [e1, e2] at ihp
      by_cases h1 : t.val % 8 = 7
      · rw [outsAt1_C V c t h0 h1]
        exact inv_C encR kvv V c henc hkv t h0 h1 _ ihp
      · rw [outsAt1_B V c t h0 h1]
        exact inv_B encR kvv V c henc hkv t h0 h1 _ ihp

/-! ## From the blocks written back to the array -/

/-- The result array the attention computes, as extended reals: for each row ANY shift gives the same quotient. -/
def Zarr (Zr : Fin 8192 → Fin 512 → ℝ) : Vec Ideal S8192x512 .f32 :=
  fun i => ((Zr ⟨(i 0).val, (i 0).isLt⟩ ⟨(i 1).val, (i 1).isLt⟩ : ℝ) : EReal)

theorem Zarr_apply (Zr : Fin 8192 → Fin 512 → ℝ) (b : Fin 8192) (d : Fin 512) : Zarr Zr (ix2 b d) = ((Zr b d : ℝ) : EReal) := rfl

theorem mem_blk1_2 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

include henc hkv in
/-- The second region leaves, in its result array, a quotient of the running sums over ALL key rows, for some shift per row. -/
theorem attn_final (Zr : Fin 8192 → Fin 512 → ℝ)
    (hZ : ∀ (b : Fin 8192) (j : Fin 512) (μ : ℝ),
      (∑ n ∈ range 16384, Real.exp (scN encR kvv b n - μ) * kvN kvv j n) / (∑ n ∈ range 16384, Real.exp (scN encR kvv b n - μ)) = Zr b j) :
    (dat1 V c).arrAt 2 cfg1.N = Zarr Zr := by
  refine (dat1 V c).arrAt_eq_of_cover 2 (Zarr Zr) (fun t hf => ?_) (fun i => ?_)
  · -- what a last column block writes back
    have h7 : t.val % 8 = 7 := (flush1_2 t).mp hf
    obtain ⟨μ, -, -, -, -, hout⟩ := inv_all encR kvv V c henc hkv t.val t rfl
    have hout := hout h7
    show (cfg1.win 2).cut (grid1.coords t) ((dat1 V c).after 2 t) = _
    rw [after1_2]
    funext j
    obtain ⟨r, d, rfl⟩ : ∃ (r : Fin 1024) (d : Fin 512), j = ix2 r d := ⟨j 0, j 1, eq_ix2 j⟩
    show (outsAt1 V c t.val t.isLt).1 (ix2 r d) = Zarr Zr (((cfg1.win 2).blk t).view.emb (ix2 r d))
    rw [hout r d, hZ]
    show _ = ((Zr ⟨(((cfg1.win 2).blk t).view.emb (ix2 r d) 0).val, _⟩ ⟨(((cfg1.win 2).blk t).view.emb (ix2 r d) 1).val, _⟩ : ℝ) : EReal)
    obtain ⟨-, -, -, -, e4, e5⟩ := idx_facts1 t
    have hN : t.val < 64 := lt_of_lt_of_eq t.isLt N_1
    have c0 : (((cfg1.win 2).blk t).view.emb (ix2 r d) 0).val = (rowOf (t.val / 8) r).val := by
      show win1_2.index t (0 : Fin 2) * 1024 + 1 * r.val = t.val / 8 % 8 * 1024 + r.val
      rw [e4, Nat.mod_eq_of_lt (by omega)]; omega
    have c1 : (((cfg1.win 2).blk t).view.emb (ix2 r d) 1).val = d.val := by
      show win1_2.index t (1 : Fin 2) * 512 + 1 * d.val = d.val
      rw [e5]; omega
    exact congrArg (fun x : ℝ => (x : EReal)) (congrArg₂ Zr (Fin.ext c0.symm) (Fin.ext c1.symm))
  · -- every row is in the block of its row block's last point
    have hi0 : (i 0).val < 8192 := (i 0).isLt
    have hi1 : (i 1).val < 512 := (i 1).isLt
    have hlt : (i 0).val / 1024 * 8 + 7 < cfg1.N := by rw [show cfg1.N = 64 from N_1]; omega
    refine ⟨⟨(i 0).val / 1024 * 8 + 7, hlt⟩, (flush1_2 _).mpr (by show ((i 0).val / 1024 * 8 + 7) % 8 = 7; omega), ?_⟩
    rw [mem_blk1_2]
    obtain ⟨-, -, -, -, e4, e5⟩ := idx_facts1 ⟨(i 0).val / 1024 * 8 + 7, hlt⟩
    intro a
    match a with
    | ⟨0, _⟩ =>
      show win1_2.index ⟨(i 0).val / 1024 * 8 + 7, hlt⟩ (0 : Fin 2) * 1024 ≤ (i 0).val ∧ (i 0).val < win1_2.index ⟨(i 0).val / 1024 * 8 + 7, hlt⟩ (0 : Fin 2) * 1024 + 1024
      rw [e4]; show ((i 0).val / 1024 * 8 + 7) / 8 * 1024 ≤ (i 0).val ∧ (i 0).val < ((i 0).val / 1024 * 8 + 7) / 8 * 1024 + 1024; omega
    | ⟨1, _⟩ =>
      show win1_2.index ⟨(i 0).val / 1024 * 8 + 7, hlt⟩ (1 : Fin 2) * 512 ≤ (i 1).val ∧ (i 1).val < win1_2.index ⟨(i 0).val / 1024 * 8 + 7, hlt⟩ (1 : Fin 2) * 512 + 512
      rw [e5]; omega

end Cert.KernelIdeal.Hand

end
-- ==== Proof.KvValue.lean ====
import proofs.«424223_j2963527434924_3_alg».proof.Proof.KvRegion
import proofs.«424223_j2963527434924_3_alg».proof.Proof.PayIdealA
import proofs.«424223_j2963527434924_3_alg».proof.Proof.Spec
import Idealize.ShloMosaic.Lib.Pipeline.Value
import Idealize.ShloMosaic.Lib.ValueIdx
import Idealize.ShloMosaic.PureOps.Ideal.Laws

set_option maxRecDepth 16384

/-! # The first region's result array, over the reals

Each grid point writes back the product of its row block of `X` with `D`; the sixteen row blocks tile the array; so
when `X` and `D` hold real numbers the array ends holding `kv = X · D`, entry by entry. -/

noncomputable section

namespace Cert.KernelIdeal.Hand

open Cert.KernelIdeal Cert.KernelIdeal.Gen Cert.KernelIdeal.PayIdeal Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- `kv` as an array of extended reals. -/
def KV (XR : Fin 16384 → Fin 1024 → ℝ) (DR : Fin 1024 → Fin 512 → ℝ) : Vec Ideal S16384x512 .bf16 :=
  fun i => ((kvR XR DR ⟨(i 0).val, (i 0).isLt⟩ ⟨(i 1).val, (i 1).isLt⟩ : ℝ) : EReal)

theorem KV_apply (XR : Fin 16384 → Fin 1024 → ℝ) (DR : Fin 1024 → Fin 512 → ℝ) (n : Fin 16384) (d : Fin 512) :
    KV XR DR (ix2 n d) = ((kvR XR DR n d : ℝ) : EReal) := rfl

theorem kv_hz : (![0, 0] : Fin 2 → Nat) = fun _ => 0 := funext fun a => by fin_cases a <;> rfl

/-- Where each window's block sits at point `t`: the block of `X` and the block of the result are row block `t`;
    `D` is one block. -/
theorem kv_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of row block `t` is a row of the array: sixteen blocks of 1024 rows. -/
theorem kv_row_lt (t : Fin cfg0.N) (r : Fin 1024) : t.val * 1024 + r.val < 16384 := by
  have hN : cfg0.N = 16 := N_0
  have ht : t.val < cfg0.N := t.isLt
  have hr : r.val < 1024 := r.isLt
  omega

/-- The block of `X` at point `t`. -/
abbrev kvblk_x (c : Dev nD) (t : Fin cfg0.N) : Vec Ideal S1024x1024 .f32 := iblk0 V c 0 t
/-- The block of `D` at point `t`. -/
abbrev kvblk_w (c : Dev nD) (t : Fin cfg0.N) : Vec Ideal S1024x512 .f32 := iblk0 V c 1 t

/-- The block of `X` at point `t` holds rows `1024 t … 1024 t + 1023` of `X`. -/
theorem kvblk_x_apply (c : Dev nD) (t : Fin cfg0.N) (r : Fin 1024) (k : Fin 1024) :
    kvblk_x V c t (ix2 r k) = V c main_arg1 (ix2 ⟨t.val * 1024 + r.val, kv_row_lt t r⟩ k) := by
  obtain ⟨e0, e1, -⟩ := kv_idx t
  show V c main_arg1 (((cfg0.win 0).blk t).view.emb (ix2 r k)) = _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The block of `D` at every point is `D`. -/
theorem kvblk_w_apply (c : Dev nD) (t : Fin cfg0.N) (k : Fin 1024) (d : Fin 512) :
    kvblk_w V c t (ix2 k d) = V c main_arg2 (ix2 k d) := by
  obtain ⟨-, -, e2, e3, -⟩ := kv_idx t
  show V c main_arg2 (((cfg0.win 1).blk t).view.emb (ix2 k d)) = _
  refine congrArg _ (funext fun a => Fin.ext ?_)
  match a with
  | ⟨0, _⟩ => show win0_1.index t (0 : Fin 2) * 1024 + 1 * k.val = k.val; omega
  | ⟨1, _⟩ => show win0_1.index t (1 : Fin 2) * 512 + 1 * d.val = d.val; omega

/-- What point `t` writes back is row block `t` of `kv`. -/
theorem kv_flushed_eq (c : Dev nD) (XR : Fin 16384 → Fin 1024 → ℝ) (DR : Fin 1024 → Fin 512 → ℝ)
    (hX : ∀ n k, V c main_arg1 (ix2 n k) = ((XR n k : ℝ) : EReal))
    (hD : ∀ k d, V c main_arg2 (ix2 k d) = ((DR k d : ℝ) : EReal)) (t : Fin cfg0.N) :
    (dat0 V c).flushed 2 t = ((cfg0.win 2).blk t).view.read (Elt Ideal) (KV XR DR) := by
  show (cfg0.win 2).cut (grid0.coords t) ((dat0 V c).after 2 t) = _
  rw [after0_2]
  unfold out0_2
  rw [View.canon_unit_zero kv_hz]
  simp only [View.ld_unit_zero (S := S1024x1024) kv_hz, View.ld_unit_zero (S := S1024x512) kv_hz]
  funext j
  obtain ⟨r, d, rfl⟩ : ∃ (r : Fin 1024) (d : Fin 512), j = ix2 r d := ⟨j 0, j 1, eq_ix2 j⟩
  obtain ⟨-, -, -, -, e4, e5⟩ := kv_idx t
  refine (pay0_real (kvblk_x V c t) (kvblk_w V c t) (fun r k => XR ⟨t.val * 1024 + r.val, kv_row_lt t r⟩ k) DR
    (fun r' k => (kvblk_x_apply V c t r' k).trans (hX _ k)) (fun k d' => (kvblk_w_apply V c t k d').trans (hD k d')) r d).trans ?_
  have he : ((cfg0.win 2).blk t).view.emb (ix2 r d) = ix2 ⟨t.val * 1024 + r.val, kv_row_lt t r⟩ d :=
    funext fun a => Fin.ext (by
      match a with
      | ⟨0, _⟩ => show win0_2.index t (0 : Fin 2) * 1024 + 1 * r.val = t.val * 1024 + r.val; omega
      | ⟨1, _⟩ => show win0_2.index t (1 : Fin 2) * 512 + 1 * d.val = d.val; omega)
  show _ = KV XR DR (((cfg0.win 2).blk t).view.emb (ix2 r d))
  rw [he, KV_apply]
  rfl

/-- An index of the array is in point `t`'s block iff each coordinate is in the block's range on its axis. -/
theorem kv_mem_blk (t : Fin cfg0.N) (i : S16384x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The sixteen row blocks cover the array: row `n` is in block `n / 1024`. -/
theorem kv_cover (i : S16384x512.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 512 := (i 1).isLt
  obtain ⟨t, ht⟩ : ∃ t : Fin cfg0.N, t.val = (i 0).val / 1024 := ⟨⟨(i 0).val / 1024, by omega⟩, rfl⟩
  obtain ⟨-, -, -, -, e4, e5⟩ := kv_idx t
  refine ⟨t, flush0_2 t, ?_⟩
  rw [kv_mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The first region leaves `kv` in its result array. -/
theorem kv_final (c : Dev nD) (XR : Fin 16384 → Fin 1024 → ℝ) (DR : Fin 1024 → Fin 512 → ℝ)
    (hX : ∀ n k, V c main_arg1 (ix2 n k) = ((XR n k : ℝ) : EReal))
    (hD : ∀ k d, V c main_arg2 (ix2 k d) = ((DR k d : ℝ) : EReal)) :
    (dat0 V c).arrAt 2 cfg0.N = KV XR DR := by
  exact (dat0 V c).arrAt_eq_of_cover 2 (KV XR DR) (fun t _ => kv_flushed_eq V c XR DR hX hD t) kv_cover

end Cert.KernelIdeal.Hand

end
-- ==== Proof.Bridge.lean ====
import proofs.«424223_j2963527434924_3_alg».proof.Proof.AttnValue
import proofs.«424223_j2963527434924_3_alg».proof.Proof.KvValue
import proofs.«424223_j2963527434924_3_alg».proof.Proof.Run

set_option maxRecDepth 16384

/-! # The idealized kernel's result, over the reals

The first region leaves `kv = X · D`; the second reads it and the queries and leaves, for each row, the quotient of the
running sums over all key rows, which is the softmax-weighted sum of the rows of `kv` whatever the running maximum was. -/

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Finset

/-- The quotient of the running sums over all sixteen thousand key rows is the reference's entry, for any shift. -/
theorem quot_eq_refZ (encR : Fin 8192 → Fin 512 → ℝ) (XR : Fin 16384 → Fin 1024 → ℝ) (DR : Fin 1024 → Fin 512 → ℝ)
    (b : Fin 8192) (j : Fin 512) (μ : ℝ) :
    (∑ n ∈ range 16384, Real.exp (scN encR (kvR XR DR) b n - μ) * kvN (kvR XR DR) j n)
        / (∑ n ∈ range 16384, Real.exp (scN encR (kvR XR DR) b n - μ))
      = refZ encR XR DR b j := by
  rw [← onlineZ_eq_refZ encR XR DR μ b j]
  unfold onlineZ
  rw [Finset.sum_range, Finset.sum_range]
  have e1 : ∀ n : Fin 16384, scN encR (kvR XR DR) b n.val = scoreK encR XR DR b n := fun n => by
    unfold scN; rw [ext_of_lt _ _ n.isLt]; rfl
  have e2 : ∀ n : Fin 16384, kvN (kvR XR DR) j n.val = kvR XR DR n j := fun n => by
    unfold kvN; rw [ext_of_lt _ _ n.isLt]
  simp only [e1, e2]

/-- The idealized kernel's result array on real inputs. -/
theorem result_real (m : (ℓ : Loc nD τ sig) → Buf (Elt Ideal) ℓ) (c : Dev nD)
    (encR : Fin 8192 → Fin 512 → ℝ) (XR : Fin 16384 → Fin 1024 → ℝ) (DR : Fin 1024 → Fin 512 → ℝ)
    (henc : ∀ b d, m ((c.tc : Thread nD τ).loc main_arg0) (ix2 b d) = ((encR b d : ℝ) : EReal))
    (hX : ∀ n k, m ((c.tc : Thread nD τ).loc main_arg1) (ix2 n k) = ((XR n k : ℝ) : EReal))
    (hD : ∀ k d, m ((c.tc : Thread nD τ).loc main_arg2) (ix2 k d) = ((DR k d : ℝ) : EReal)) :
    (dat1 (E1 m) c).arrAt 2 cfg1.N = Zarr (refZ encR XR DR) := by
  have hkv := kv_final (E0 m) c XR DR hX hD
  exact attn_final encR (kvR XR DR) (E1 m) c
    (fun b d => (congrFun (E1_main_arg0 m c) (ix2 b d)).trans (henc b d))
    (fun n d => (congrFun ((E1_main_v0 m c).trans hkv) (ix2 n d)).trans (KV_apply XR DR n d))
    (refZ encR XR DR) (fun b j μ => quot_eq_refZ encR XR DR b j μ)

end Cert.KernelIdeal.Hand

end
-- ==== Proof.RefValue.lean ====
import proofs.«424223_j2963527434924_3_alg».proof.Defs
import proofs.«424223_j2963527434924_3_alg».proof.Proof.Gen.ReferenceIdeal.Run
import proofs.«424223_j2963527434924_3_alg».proof.Proof.Gen.ReferenceIdeal.Read
import proofs.«424223_j2963527434924_3_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## Real numbers inside the extended reals -/

/-- A finite sum of real numbers, read in the extended reals, is the sum of the terms read there. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of finitely many real numbers, read in the extended reals, is the fold of `max` from `-∞` over them. -/
theorem fold_max_coe {ι : Type*} (s : Finset ι) (hs : s.Nonempty) (f : ι → ℝ) :
    s.fold max (⊥ : EReal) (fun k => ((f k : ℝ) : EReal)) = ((s.sup' hs f : ℝ) : EReal) := by
  have e1 : s.fold max (⊥ : EReal) (fun k => ((f k : ℝ) : EReal)) = s.sup (fun k => ((f k : ℝ) : EReal)) := rfl
  rw [e1, ← Finset.sup'_eq_sup hs]
  exact (Finset.apply_sup'_eq_sup'_comp hs (fun r : ℝ => (r : EReal))
    (fun x y => EReal.coe_strictMono.monotone.map_max)).symm

/-! ## The constants of the program

`512.0` and `-∞` are read here; the pattern of `0.0` denotes `0` by the library's `Ideal.ofBits_zero_f32`. -/

/-- The pattern of `512.0` denotes the real 512. -/
theorem ofBits_512 : Ideal.ofBits .f32 0x44000000#32 = ((512 : ℝ) : EReal) := by
  simp [Ideal.ofBits, Ideal.ieee, -EReal.coe_mul]; norm_num

/-- The pattern `0xFF800000` denotes `-∞`. -/
theorem ofBits_neg_inf : Ideal.ofBits .f32 0xFF800000#32 = (⊥ : EReal) := by
  simp [Ideal.ofBits, Ideal.ieee]

/-! ## Each stage of the reference at an index, on real inputs -/

/-- `kv = X · D`, entry by entry. -/
theorem val_main_v0_real (a1 : (⟨S16384x1024, .f32⟩ : BufTy).Contents (Elt Ideal))
    (a2 : (⟨S1024x512, .f32⟩ : BufTy).Contents (Elt Ideal))
    (XR : Fin 16384 → Fin 1024 → ℝ) (DR : Fin 1024 → Fin 512 → ℝ)
    (h1 : ∀ n k, a1 (ix2 n k) = ((XR n k : ℝ) : EReal)) (h2 : ∀ k d, a2 (ix2 k d) = ((DR k d : ℝ) : EReal))
    (n : Fin 16384) (d : Fin 512) :
    val_main_v0 (F := Ideal) a1 a2 (ix2 n d) = ((Cert.Spec.kvR XR DR n d : ℝ) : EReal) := by
  rw [val_main_v0_apply]
  unfold Cert.Spec.kvR
  rw [coe_sum]
  refine Finset.sum_congr rfl fun k _ => ?_
  have el : lidx_main_v0 (ix2 n d) k = ix2 n k :=
    funext fun a => Fin.ext (by match a with | ⟨0, _⟩ => rfl | ⟨1, _⟩ => rfl)
  have er : ridx_main_v0 (ix2 n d) k = ix2 k d :=
    funext fun a => Fin.ext (by match a with | ⟨0, _⟩ => rfl | ⟨1, _⟩ => rfl)
  rw [el, er, h1, h2, EReal.coe_mul]

/-- The score: the inner product of a query row with a row of `kv`, divided by 512. -/
theorem val_main_v3_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) (n : Fin 16384) :
    val_main_v3 (F := Ideal) a0 a1 a2 (ix2 b n) = ((Cert.Spec.scoreR encR XR DR b n : ℝ) : EReal) := by
  rw [val_main_v3_apply, val_main_v1_apply, val_main_v2_apply, val_main_cst_apply, Ideal.hostDivf_def,
    Ideal.ofBits_def, ofBits_512, Ideal.div_coe (by norm_num : (512 : ℝ) ≠ 0)]
  unfold Cert.Spec.scoreR
  rw [div_eq_mul_one_div (∑ d, encR b d * Cert.Spec.kvR XR DR n d), EReal.coe_mul, coe_sum]
  congr 1
  refine Finset.sum_congr rfl fun k _ => ?_
  have el : lidx_main_v1 (ix2 b n) k = ix2 b k :=
    funext fun a => Fin.ext (by match a with | ⟨0, _⟩ => rfl | ⟨1, _⟩ => rfl)
  have er : ridx_main_v1 (ix2 b n) k = ix2 n k :=
    funext fun a => Fin.ext (by match a with | ⟨0, _⟩ => rfl | ⟨1, _⟩ => rfl)
  rw [el, er, h0, val_main_v0_real a1 a2 XR DR h1 h2, EReal.coe_mul]

/-- The reduced index `b` with the key coordinate `k` put back is `(b, k)`. -/
theorem lift_ix2 (h : S8192x16384.Reduces [1] S8192) (b : Fin 8192) (k : Fin (S8192x16384.size 1)) :
    h.lift (ix1 b) k = ix2 b (⟨k.val, k.isLt⟩ : Fin 16384) := by
  funext c; apply Fin.ext
  match c with
  | ⟨0, _⟩ => rfl
  | ⟨1, _⟩ => rfl

/-- The maximum-reduce over the key axis, from `-∞`, is the largest score of the row. -/
theorem val_main_v4_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) :
    val_main_v4 (F := Ideal) a0 a1 a2 (ix1 b) = ((Cert.Spec.rowMax encR XR DR b : ℝ) : EReal) := by
  have hy : ∀ n, val_main_v3 (F := Ideal) a0 a1 a2 (ix2 b n) = ((Cert.Spec.scoreR encR XR DR b n : ℝ) : EReal) :=
    val_main_v3_real a0 a1 a2 encR XR DR h0 h1 h2 b
  unfold val_main_v4
  generalize val_main_v3 (F := Ideal) a0 a1 a2 = y at hy ⊢
  have h : S8192x16384.Reduces [1] S8192 := by decide
  refine (Host.reduce_eq_fold_single (α := Ideal .f32) (s := S8192x16384) (t := S8192) (u := S_) (a := 1)
    (FloatOps.maximumf (F := Ideal) (φ := .f32)) y (val_main_cst_0 (F := Ideal)) reducesTo_S8192x16384_S8192_d1 h h_S_
    (ix1 b)).trans ?_
  rw [val_main_cst_0_apply, Ideal.ofBits_def, ofBits_neg_inf]
  have hf : (y ∘ h.lift (ix1 b)) = fun k : Fin 16384 => ((Cert.Spec.scoreR encR XR DR b k : ℝ) : EReal) :=
    funext fun k => (congrArg y (lift_ix2 h b k)).trans (hy _)
  unfold Cert.Spec.rowMax
  rw [← fold_max_coe]
  exact congrArg (fun f => Finset.fold max (⊥ : EReal) f (Finset.univ : Finset (Fin 16384))) hf

/-- The maximum with the broadcast `-∞` changes nothing. -/
theorem val_main_v6_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) :
    val_main_v6 (F := Ideal) a0 a1 a2 (ix1 b) = ((Cert.Spec.rowMax encR XR DR b : ℝ) : EReal) := by
  rw [val_main_v6_apply, val_main_v5_apply, val_main_cst_1_apply, Ideal.ofBits_def, ofBits_neg_inf,
    val_main_v4_real a0 a1 a2 encR XR DR h0 h1 h2, Ideal.maximumf_def]
  exact max_bot_left _

/-- The row maximum broadcast along the key axis. -/
theorem val_main_v8_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) (n : Fin 16384) :
    val_main_v8 (F := Ideal) a0 a1 a2 (ix2 b n) = ((Cert.Spec.rowMax encR XR DR b : ℝ) : EReal) := by
  rw [val_main_v8_apply, val_main_v7_apply]
  have e : idx_main_v7 (idx_main_v8 (ix2 b n)) = ix1 b :=
    funext fun a => Fin.ext (by match a with | ⟨0, _⟩ => rfl)
  rw [e, val_main_v6_real a0 a1 a2 encR XR DR h0 h1 h2]

/-- The exponential of the score less the row maximum. -/
theorem val_main_v10_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) (n : Fin 16384) :
    val_main_v10 (F := Ideal) a0 a1 a2 (ix2 b n)
      = ((Real.exp (Cert.Spec.scoreR encR XR DR b n - Cert.Spec.rowMax encR XR DR b) : ℝ) : EReal) := by
  rw [val_main_v10_apply, val_main_v9_apply, val_main_v3_real a0 a1 a2 encR XR DR h0 h1 h2, val_main_v8_real a0 a1 a2 encR XR DR h0 h1 h2,
    Ideal.subf_def, Ideal.hostUnary_exp_def, ← EReal.coe_sub, Ideal.exp_coe]

/-- The sum of the exponentials over the key axis, from zero. -/
theorem val_main_v11_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) :
    val_main_v11 (F := Ideal) a0 a1 a2 (ix1 b)
      = ((∑ n', Real.exp (Cert.Spec.scoreR encR XR DR b n' - Cert.Spec.rowMax encR XR DR b) : ℝ) : EReal) := by
  rw [val_main_v11_apply, val_main_cst_2_apply, Ideal.ofBits_def, Ideal.ofBits_zero_f32, zero_add, coe_sum]
  refine Finset.sum_congr rfl fun k _ => ?_
  have e : idx_main_v11 (ix1 b) k = ix2 b k :=
    funext fun a => Fin.ext (by match a with | ⟨0, _⟩ => rfl | ⟨1, _⟩ => rfl)
  rw [e, val_main_v10_real a0 a1 a2 encR XR DR h0 h1 h2]

/-- The sum broadcast along the key axis. -/
theorem val_main_v13_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) (n : Fin 16384) :
    val_main_v13 (F := Ideal) a0 a1 a2 (ix2 b n)
      = ((∑ n', Real.exp (Cert.Spec.scoreR encR XR DR b n' - Cert.Spec.rowMax encR XR DR b) : ℝ) : EReal) := by
  rw [val_main_v13_apply, val_main_v12_apply]
  have e : idx_main_v12 (idx_main_v13 (ix2 b n)) = ix1 b :=
    funext fun a => Fin.ext (by match a with | ⟨0, _⟩ => rfl)
  rw [e, val_main_v11_real a0 a1 a2 encR XR DR h0 h1 h2]

/-- The softmax weight: the exponential over the sum, which is a positive real. -/
theorem val_main_v14_real (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal))
    (b : Fin 8192) (n : Fin 16384) :
    val_main_v14 (F := Ideal) a0 a1 a2 (ix2 b n)
      = ((Real.exp (Cert.Spec.scoreR encR XR DR b n - Cert.Spec.rowMax encR XR DR b)
          / ∑ n', Real.exp (Cert.Spec.scoreR encR XR DR b n' - Cert.Spec.rowMax encR XR DR b) : ℝ) : EReal) := by
  have hpos : 0 < ∑ n', Real.exp (Cert.Spec.scoreR encR XR DR b n' - Cert.Spec.rowMax encR XR DR b) :=
    Finset.sum_pos (fun _ _ => Real.exp_pos _) Finset.univ_nonempty
  rw [val_main_v14_apply, val_main_v10_real a0 a1 a2 encR XR DR h0 h1 h2, val_main_v13_real a0 a1 a2 encR XR DR h0 h1 h2, Ideal.hostDivf_def,
    Ideal.div_coe hpos.ne', ← EReal.coe_mul, ← div_eq_mul_one_div]

/-- On real inputs the reference's result, entry by entry, is the softmax-weighted sum of the rows of `kv`. -/
theorem val_main_v15_real
    (a0 : (⟨S8192x512, .f32⟩ : BufTy).Contents (Elt Ideal)) (a1 : (⟨S16384x1024, .f32⟩ : BufTy).Contents (Elt Ideal))
    (a2 : (⟨S1024x512, .f32⟩ : BufTy).Contents (Elt Ideal))
    (encR : Fin 8192 → Fin 512 → ℝ) (XR : Fin 16384 → Fin 1024 → ℝ) (DR : Fin 1024 → Fin 512 → ℝ)
    (h0 : ∀ b d, a0 (ix2 b d) = ((encR b d : ℝ) : EReal)) (h1 : ∀ n k, a1 (ix2 n k) = ((XR n k : ℝ) : EReal))
    (h2 : ∀ k d, a2 (ix2 k d) = ((DR k d : ℝ) : EReal)) (b : Fin 8192) (d : Fin 512) :
    val_main_v15 (F := Ideal) a0 a1 a2 (ix2 b d) = ((Cert.Spec.refZ encR XR DR b d : ℝ) : EReal) := by
  rw [val_main_v15_apply]
  unfold Cert.Spec.refZ
  rw [coe_sum]
  refine Finset.sum_congr rfl fun k _ => ?_
  have el : lidx_main_v15 (ix2 b d) k = ix2 b k :=
    funext fun a => Fin.ext (by match a with | ⟨0, _⟩ => rfl | ⟨1, _⟩ => rfl)
  have er : ridx_main_v15 (ix2 b d) k = ix2 k d :=
    funext fun a => Fin.ext (by match a with | ⟨0, _⟩ => rfl | ⟨1, _⟩ => rfl)
  rw [el, er, val_main_v14_real a0 a1 a2 encR XR DR h0 h1 h2, val_main_v0_real a1 a2 XR DR h1 h2, EReal.coe_mul]

end Cert.ReferenceIdeal.RefValue

end
-- ==== Proof.Finite.lean ====
import proofs.«424223_j2963527434924_3_alg».proof.Defs
import proofs.«424223_j2963527434924_3_alg».proof.Proof.Gen.Pre_finite_inputs
import Idealize.ShloMosaic.Lib.ValueIdx
import Idealize.ShloMosaic.Lib.ReduceAll
import Idealize.ShloMosaic.PureOps.Ideal.Laws

/-! # The precondition says every input entry is a real number -/

noncomputable section

namespace Cert.KernelIdeal.Finite

open Idealize.ShloMosaic Idealize.ShloMosaic.TcCoe Idealize.SL.Sem Idealize.ShloMosaic.ValueIdx

/-- The scalar shape has exactly one index. -/
instance : Subsingleton Cert.Pre_finite_inputs.S_.Idx := ⟨fun a b => funext fun d => d.elim0⟩

/-- An extended real whose absolute value `max x (-x)` lies strictly below `+∞` is a real number:
    `+∞` has absolute value `+∞`, and so has `-∞`. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the predicate, at any shape: if the conjunction over all entries of `|x| < +∞`
    (the f32 pattern `0x7F800000` is `+∞`) comes out true, then each entry of `x` is a real number. -/
theorem entry_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr h0 ix0 = 1#1)
    (i : s.Idx) : ∃ r : ℝ, x i = (r : EReal) := by
  -- the conjunction is true, so its entry at `i` is
  have hi := Host.reduce_andi_all _ _ hr h0 ix0 e i
  apply real_of_abs_lt_top
  simp only [cmpf, Host.absf, broadcastInDim, constant] at hi
  have htop : Ideal.ofBits .f32 0x7F800000#32 = (⊤ : EReal) := by simp [Ideal.ofBits, Ideal.ieee]
  have hbool : ∀ b : Bool, BitVec.ofBool b = 1#1 → b = true := by decide
  rw [Ideal.hostAbsf_def, Ideal.absf_def, Ideal.cmpf_def, Ideal.ofBits_def, htop] at hi
  exact of_decide_eq_true (hbool _ hi)

/-- Under the precondition each of the three argument arrays is, entry by entry, a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∃ encR : Fin 8192 → Fin 512 → ℝ, ∀ b d,
        m ((c.tc : Thread Cert.KernelIdeal.nD Cert.KernelIdeal.τ).loc Cert.KernelIdeal.main_arg0) (ix2 b d) = ((encR b d : ℝ) : EReal))
    ∧ (∃ XR : Fin 16384 → Fin 1024 → ℝ, ∀ n k,
        m ((c.tc : Thread Cert.KernelIdeal.nD Cert.KernelIdeal.τ).loc Cert.KernelIdeal.main_arg1) (ix2 n k) = ((XR n k : ℝ) : EReal))
    ∧ (∃ DR : Fin 1024 → Fin 512 → ℝ, ∀ k d,
        m ((c.tc : Thread Cert.KernelIdeal.nD Cert.KernelIdeal.τ).loc Cert.KernelIdeal.main_arg2) (ix2 k d) = ((DR k d : ℝ) : EReal)) := by
  -- the predicate's one entry, the conjunction of the three arrays' tests
  have h := congrFun (h c) ix0
  dsimp only [Cert.Pre_finite_inputs.fn] at h
  obtain ⟨h01, h2⟩ := IntOp.andi_eq_one.1 h
  obtain ⟨h0, h1⟩ := IntOp.andi_eq_one.1 h01
  refine ⟨?_, ?_, ?_⟩
  · choose f hf using fun b d => entry_real _ _ _ _ h0 (ix2 b d)
    exact ⟨f, hf⟩
  · choose f hf using fun n k => entry_real _ _ _ _ h1 (ix2 n k)
    exact ⟨f, hf⟩
  · choose f hf using fun k d => entry_real _ _ _ _ h2 (ix2 k d)
    exact ⟨f, hf⟩

end Cert.KernelIdeal.Finite

end
-- ==== Proof.lean ====
/- The certificate of a two-kernel attention against its reference, over the extended reals.

   The kernel: `kv = X · D` block of rows by block of rows, then for each block of 1024 query rows a sweep over
   eight blocks of 2048 key rows that keeps a running maximum `m` (started from a finite number), a running
   denominator `l = ∑ exp (s - m)` and a running numerator `acc = ∑ exp (s - m) · kv`, rescaling both by
   `exp (m_old - m_new)` at each block, and stores `acc / l` after the last block. The reference: the scores divided
   by 512, the softmax along the key axis with the row maximum subtracted, times `kv`.

   Over the reals both are `∑ₙ exp (sₙ - μ) · kvₙ / ∑ₙ exp (sₙ - μ)`, which does not depend on the shift `μ`; the
   kernel's scaling of the queries by `2⁻⁹` before the inner product is the reference's division by 512 after it. The
   precondition makes every input entry a real number, so every quantity above is a real number and the extended reals'
   arithmetic is the reals'. The three frames: each program's run, with the result dropped. -/
import proofs.«424223_j2963527434924_3_alg».proof.Defs
import proofs.«424223_j2963527434924_3_alg».proof.Proof.Gen.Kernel
import proofs.«424223_j2963527434924_3_alg».proof.Proof.Gen.KernelIdeal
import proofs.«424223_j2963527434924_3_alg».proof.Proof.Gen.ReferenceIdeal
import proofs.«424223_j2963527434924_3_alg».proof.Proof.Gen.Pre_finite_inputs
import proofs.«424223_j2963527434924_3_alg».proof.Proof.Gen.ReferenceIdeal.Run
import proofs.«424223_j2963527434924_3_alg».proof.Proof.Gen.ReferenceIdeal.Read
import proofs.«424223_j2963527434924_3_alg».proof.Proof.Bits.Run
import proofs.«424223_j2963527434924_3_alg».proof.Proof.Run
import proofs.«424223_j2963527434924_3_alg».proof.Proof.Bridge
import proofs.«424223_j2963527434924_3_alg».proof.Proof.RefValue
import proofs.«424223_j2963527434924_3_alg».proof.Proof.Finite
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both idealized programs end, on inputs that agree, with the same array: entry `(b, d)` is the softmax-weighted sum
    of column `d` of `kv` for query row `b`. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.KernelIdeal.Hand.dat1 (Cert.KernelIdeal.Hand.E1 m) c).arrAt 2 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨encR, henc⟩, ⟨XR, hX⟩, ⟨DR, hD⟩⟩ := Cert.KernelIdeal.Finite.real_of_pre m hpre c
  rw [Cert.ReferenceIdeal.Read.val_main_v15_eq, (hagree c).1, (hagree c).2.1, (hagree c).2.2]
  show _ = (Cert.KernelIdeal.Hand.dat1 (Cert.KernelIdeal.Hand.E1 m) c).arrAt 2 Cert.KernelIdeal.cfg1.N
  rw [Cert.KernelIdeal.Hand.result_real m c encR XR DR henc hX hD]
  funext i
  obtain ⟨b, d, rfl⟩ : ∃ (b : Fin 8192) (d : Fin 512), i = ValueIdx.ix2 b d := ⟨i 0, i 1, ValueIdx.eq_ix2 i⟩
  exact Cert.ReferenceIdeal.RefValue.val_main_v15_real _ _ _ encR XR DR henc hX hD b d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
